-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x39x64 : Shape := ⟨3, ![16384, 39, 64]⟩
abbrev S_ : Shape := ⟨0, ![]⟩

class Facts : Prop where
  bcast_S_S16384x39x64 : S_.BroadcastsInDim S16384x39x64 (![] : Fin 0 → Fin S16384x39x64.rank)
  reducesTo_S16384x39x64_S_d0_1_2 : S16384x39x64.ReducesTo [0, 1, 2] S_
  h_S_ : 0 < S_.numel

variable [Facts]

def fn {F : FTy → Type} [FloatOps F] (main_arg0 : FVec F S16384x39x64 .f32) : IVec S_ 1 :=
  let main_v0 : FVec F S16384x39x64 .f32 := Host.absf main_arg0
  let main_cst : FVec F S_ .f32 := constant S_ .f32 0x7F800000#32
  let main_v1 : FVec F S16384x39x64 .f32 := broadcastInDim S16384x39x64 ![] bcast_S_S16384x39x64 main_cst
  let main_v2 : IVec S16384x39x64 1 := cmpf .olt main_v0 main_v1
  let main_c : IVec S_ 1 := constantI S_ 1 1#1
  let main_v3 : IVec S_ 1 := (fun x v => Host.reduce IntOp.andi x v reducesTo_S16384x39x64_S_d0_1_2 h_S_) main_v2 main_c
  main_v3
-- ==== Kernel.lean ====
abbrev S16384x39x64 : Shape := ⟨3, ![16384, 39, 64]⟩
abbrev S741 : Shape := ⟨1, ![741]⟩
abbrev S_ : Shape := ⟨0, ![]⟩
abbrev S16384x40x64 : Shape := ⟨3, ![16384, 40, 64]⟩
abbrev S16384x1600 : Shape := ⟨2, ![16384, 1600]⟩
abbrev S256x40x64 : Shape := ⟨3, ![256, 40, 64]⟩
abbrev S256x1600 : Shape := ⟨2, ![256, 1600]⟩
abbrev S64x160x64 : Shape := ⟨3, ![64, 160, 64]⟩
abbrev S64x160x160 : Shape := ⟨3, ![64, 160, 160]⟩
abbrev S64x40x40 : Shape := ⟨3, ![64, 40, 40]⟩
abbrev S64x1x40x40 : Shape := ⟨4, ![64, 1, 40, 40]⟩
abbrev S64x4x40x40 : Shape := ⟨4, ![64, 4, 40, 40]⟩
abbrev S256x40x40 : Shape := ⟨3, ![256, 40, 40]⟩
abbrev S741x1 : Shape := ⟨2, ![741, 1]⟩
abbrev S16384x741 : Shape := ⟨2, ![16384, 741]⟩

abbrev nBuf : Space → Nat
  | .hbm => 15
  | .vmem => 4
  | .smem => 0
  | _ => 0

abbrev bufTy : (tb : Table) → Fin (tcTables nBuf tb) → BufTy
  | .hbm, ⟨0, _⟩ => ⟨S16384x39x64, .f32⟩
  | .hbm, ⟨1, _⟩ => ⟨S741, .i32⟩
  | .hbm, ⟨2, _⟩ => ⟨S_, .i32⟩
  | .hbm, ⟨3, _⟩ => ⟨S_, .f32⟩
  | .hbm, ⟨4, _⟩ => ⟨S16384x40x64, .f32⟩
  | .hbm, ⟨5, _⟩ => ⟨S16384x1600, .f32⟩
  | .hbm, ⟨6, _⟩ => ⟨S_, .i32⟩
  | .hbm, ⟨7, _⟩ => ⟨S741, .i32⟩
  | .hbm, ⟨8, _⟩ => ⟨S741, .i1⟩
  | .hbm, ⟨9, _⟩ => ⟨S_, .i32⟩
  | .hbm, ⟨10, _⟩ => ⟨S741, .i32⟩
  | .hbm, ⟨11, _⟩ => ⟨S741, .i32⟩
  | .hbm, ⟨12, _⟩ => ⟨S741, .i32⟩
  | .hbm, ⟨13, _⟩ => ⟨S741x1, .i32⟩
  | .hbm, ⟨14, _⟩ => ⟨S16384x741, .f32⟩
  | .local _ .vmem, ⟨0, _⟩ => ⟨S256x40x64, .f32⟩
  | .local _ .vmem, ⟨1, _⟩ => ⟨S256x40x64, .f32⟩
  | .local _ .vmem, ⟨2, _⟩ => ⟨S256x1600, .f32⟩
  | .local _ .vmem, ⟨3, _⟩ => ⟨S256x1600, .f32⟩
  | _, _ => ⟨S16384x39x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_c_1 : Ref sig .tc := ⟨.hbm, 6, rfl⟩
abbrev main_v2 : Ref sig .tc := ⟨.hbm, 7, rfl⟩
abbrev main_v3 : Ref sig .tc := ⟨.hbm, 8, rfl⟩
abbrev main_c_2 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x40x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1600 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  pads_S16384x39x64_S16384x40x64_000_010_000 : S16384x39x64.Pads (![0, 0, 0] : Fin 3 → Nat) ![0, 1, 0] ![0, 0, 0] S16384x40x64
  h_S_ : 0 < S_.numel
  inb_S256x40x64_S256x40x64_0_0_0 : ∀ a, (![0, 0, 0] : Fin 3 → Nat) a + S256x40x64.size a ≤ S256x40x64.size a
  h_S256x40x64 : 0 < S256x40x64.numel
  shapeCasts_S256x40x64_S256x40x64 : S256x40x64.ShapeCasts S256x40x64
  shapeCasts_S256x40x64_S64x160x64 : S256x40x64.ShapeCasts S64x160x64
  bitsLt_bf16_f32 : FTy.bits .bf16 < FTy.bits .f32
  slices_S64x160x160_o0_0_0_S64x40x40 : S64x160x160.Slices ![0, 0, 0] S64x40x40
  slices_S64x160x160_o0_40_40_S64x40x40 : S64x160x160.Slices ![0, 40, 40] S64x40x40
  slices_S64x160x160_o0_80_80_S64x40x40 : S64x160x160.Slices ![0, 80, 80] S64x40x40
  slices_S64x160x160_o0_120_120_S64x40x40 : S64x160x160.Slices ![0, 120, 120] S64x40x40
  shapeCasts_S64x40x40_S64x1x40x40 : S64x40x40.ShapeCasts S64x1x40x40
  concatenates_S64x1x40x40_S64x1x40x40_S64x1x40x40_S64x1x40x40_S64x4x40x40_d1 : Shape.Concatenates [S64x1x40x40, S64x1x40x40, S64x1x40x40, S64x1x40x40] S64x4x40x40 1
  shapeCasts_S64x4x40x40_S256x40x40 : S64x4x40x40.ShapeCasts S256x40x40
  shapeCasts_S256x40x40_S256x1600 : S256x40x40.ShapeCasts S256x1600
  inb_S256x1600_S256x1600_0_0 : ∀ a, (![0, 0] : Fin 2 → Nat) a + S256x1600.size a ≤ S256x1600.size a
  h_S256x1600 : 0 < S256x1600.numel
  bcast_S_S741 : S_.BroadcastsInDim S741 (![] : Fin 0 → Fin S741.rank)
  bcast_S741_S741x1_0 : S741.BroadcastsInDim S741x1 (![0] : Fin 1 → Fin S741x1.rank)
  dot_S64x160x64_S64x160x64_S64x160x160_2_2_1_1_0_0_wf : DotDims.WF S64x160x64 S64x160x64 S64x160x160 [2] [2] [1] [1] [0] [0]
  gather_S16384x1600_S741x1_S16384x741_0_1_n_n_1_1_163841_wf : GatherDims.WF S16384x1600 S741x1 S16384x741 [0] [1] [] [1] [] 1 ![16384, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x40x64.size a ≤ S16384x40x64.size a
  hwx0_0 : ∀ i : grid0.Coords, EltTy.bits .f32 = 32 ∨ (Rect.block (s := S16384x40x64) S256x40x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1600.size a ≤ S16384x1600.size a
  hwx0_1 : ∀ i : grid0.Coords, EltTy.bits .f32 = 32 ∨ (Rect.block (s := S16384x1600) S256x1600.size (cc0_transform_1 i) (hinb0_1 i)).WholeWords (EltTy.packing .f32)

variable [Facts₀]

def dot_S64x160x64_S64x160x64_S64x160x160_2_2_1_1_0_0 : DotDims S64x160x64 S64x160x64 S64x160x160 where
  lhsContracting := [2]
  rhsContracting := [2]
  lhsNonContracting := [1]
  rhsNonContracting := [1]
  lhsBatch := [0]
  rhsBatch := [0]
  wf := dot_S64x160x64_S64x160x64_S64x160x160_2_2_1_1_0_0_wf
def gather_S16384x1600_S741x1_S16384x741_0_1_n_n_1_1_163841 : GatherDims S16384x1600 S741x1 S16384x741 where
  offsetDims := [0]
  collapsedSliceDims := [1]
  operandBatchingDims := []
  startIndicesBatchingDims := []
  startIndexMap := [1]
  indexVectorDim := 1
  sliceSizes := ![16384, 1]
  wf := gather_S16384x1600_S741x1_S16384x741_0_1_n_n_1_1_163841_wf

abbrev win0_0 : Pipeline.Window sig grid0 :=
  Pipeline.Window.ofSpec (Memref.whole main_v0) S256x40x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x1600.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16384x39x64 : Shape := ⟨3, ![16384, 39, 64]⟩
abbrev S741 : Shape := ⟨1, ![741]⟩
abbrev S16384x39x39 : Shape := ⟨3, ![16384, 39, 39]⟩
abbrev S_ : Shape := ⟨0, ![]⟩
abbrev S741x1 : Shape := ⟨2, ![741, 1]⟩
abbrev S741x2 : Shape := ⟨2, ![741, 2]⟩
abbrev S16384x741 : Shape := ⟨2, ![16384, 741]⟩

abbrev nBuf : Space → Nat
  | .hbm => 22
  | .vmem => 0
  | .smem => 0
  | _ => 0

abbrev bufTy : (tb : Table) → Fin (tcTables nBuf tb) → BufTy
  | .hbm, ⟨0, _⟩ => ⟨S16384x39x64, .f32⟩
  | .hbm, ⟨1, _⟩ => ⟨S741, .i32⟩
  | .hbm, ⟨2, _⟩ => ⟨S741, .i32⟩
  | .hbm, ⟨3, _⟩ => ⟨S16384x39x39, .f32⟩
  | .hbm, ⟨4, _⟩ => ⟨S_, .i32⟩
  | .hbm, ⟨5, _⟩ => ⟨S741, .i32⟩
  | .hbm, ⟨6, _⟩ => ⟨S741, .i1⟩
  | .hbm, ⟨7, _⟩ => ⟨S_, .i32⟩
  | .hbm, ⟨8, _⟩ => ⟨S741, .i32⟩
  | .hbm, ⟨9, _⟩ => ⟨S741, .i32⟩
  | .hbm, ⟨10, _⟩ => ⟨S741, .i32⟩
  | .hbm, ⟨11, _⟩ => ⟨S_, .i32⟩
  | .hbm, ⟨12, _⟩ => ⟨S741, .i32⟩
  | .hbm, ⟨13, _⟩ => ⟨S741, .i1⟩
  | .hbm, ⟨14, _⟩ => ⟨S_, .i32⟩
  | .hbm, ⟨15, _⟩ => ⟨S741, .i32⟩
  | .hbm, ⟨16, _⟩ => ⟨S741, .i32⟩
  | .hbm, ⟨17, _⟩ => ⟨S741, .i32⟩
  | .hbm, ⟨18, _⟩ => ⟨S741x1, .i32⟩
  | .hbm, ⟨19, _⟩ => ⟨S741x1, .i32⟩
  | .hbm, ⟨20, _⟩ => ⟨S741x2, .i32⟩
  | .hbm, ⟨21, _⟩ => ⟨S16384x741, .f32⟩
  | _, _ => ⟨S16384x39x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_c_1 : Ref sig .tc := ⟨.hbm, 4, rfl⟩
abbrev main_v1 : Ref sig .tc := ⟨.hbm, 5, rfl⟩
abbrev main_v2 : Ref sig .tc := ⟨.hbm, 6, rfl⟩
abbrev main_c_2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_3 : Ref sig .tc := ⟨.hbm, 11, rfl⟩
abbrev main_v6 : Ref sig .tc := ⟨.hbm, 12, rfl⟩
abbrev main_v7 : Ref sig .tc := ⟨.hbm, 13, rfl⟩
abbrev main_c_4 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S741 : S_.BroadcastsInDim S741 (![] : Fin 0 → Fin S741.rank)
  bcast_S741_S741x1_0 : S741.BroadcastsInDim S741x1 (![0] : Fin 1 → Fin S741x1.rank)
  concatenates_S741x1_S741x1_S741x2_d1 : Shape.Concatenates [S741x1, S741x1] S741x2 1
  dot_S16384x39x64_S16384x39x64_S16384x39x39_2_2_1_1_0_0_wf : DotDims.WF S16384x39x64 S16384x39x64 S16384x39x39 [2] [2] [1] [1] [0] [0]
  gather_S16384x39x39_S741x2_S16384x741_0_12_n_n_12_1_1638411_wf : GatherDims.WF S16384x39x39 S741x2 S16384x741 [0] [1, 2] [] [1, 2] [] 1 ![16384, 1, 1]

variable [Facts₀]

def dot_S16384x39x64_S16384x39x64_S16384x39x39_2_2_1_1_0_0 : DotDims S16384x39x64 S16384x39x64 S16384x39x39 where
  lhsContracting := [2]
  rhsContracting := [2]
  lhsNonContracting := [1]
  rhsNonContracting := [1]
  lhsBatch := [0]
  rhsBatch := [0]
  wf := dot_S16384x39x64_S16384x39x64_S16384x39x39_2_2_1_1_0_0_wf
def gather_S16384x39x39_S741x2_S16384x741_0_12_n_n_12_1_1638411 : GatherDims S16384x39x39 S741x2 S16384x741 where
  offsetDims := [0]
  collapsedSliceDims := [1, 2]
  operandBatchingDims := []
  startIndicesBatchingDims := []
  startIndexMap := [1, 2]
  indexVectorDim := 1
  sliceSizes := ![16384, 1, 1]
  wf := gather_S16384x39x39_S741x2_S16384x741_0_12_n_n_12_1_1638411_wf

class Facts : Prop extends Facts₀ where

variable [Facts]
-- ==== Proof.LibContract.lean ====
/-
  A matrix product with ONE contracted axis, read at an output index over the extended reals.

  The matrix unit's product into a zero accumulator is, at an output index j, the sum over the contraction
  index of the products of the two operands at the operand indices the dimension numbers give. When a single
  axis is contracted, of extent K, the contraction index is that axis's coordinate, and the sum is a sum over
  `Fin K`. The caller names the operand index at coordinate k on each side.
-/
import Idealize.ShloMosaic.PureOps.Ideal
import Idealize.ShloMosaic.PureOps.Ideal.Laws
import Idealize.ShloMosaic.Lib.ValueIdx

noncomputable section

open scoped BigOperators

namespace Idealize.ShloMosaic.Contract

open Idealize.ShloMosaic Idealize.ShloMosaic.ValueIdx

/-- With no batch axes and ONE free (non-contracted) axis on the left operand, the left operand's index on that axis
    is the output index's first coordinate. (The library has the companion fact for the contracted axis,
    `DotDims.lhsIdx_val_of_single`; this is proved the same way: the position of the axis in a one-element list is 0.) -/
theorem lhsIdx_val_of_free {sl sr so : Shape} (d : DotDims sl sr so) {nl : Fin sl.rank} (hb : d.lhsBatch = [])
    (hn : d.lhsNonContracting = [nl]) (h0 : 0 < so.rank) (j : so.Idx) (k : d.contr.Idx) :
    (d.lhsIdx j k nl).val = (j ⟨0, h0⟩).val := by
  have hmem : nl ∈ d.lhsNonContracting := by rw [hn]; exact List.mem_singleton.mpr rfl
  unfold DotDims.lhsIdx
  rw [dif_neg (by rw [hb]; exact List.not_mem_nil), dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axes, one free axis on the left and ONE free axis on the right operand, the right operand's index
    on its free axis is the output index's second coordinate. -/
theorem rhsIdx_val_of_free {sl sr so : Shape} (d : DotDims sl sr so) {nl : Fin sl.rank} {nr : Fin sr.rank}
    (hbl : d.lhsBatch = []) (hbr : d.rhsBatch = []) (hnl : d.lhsNonContracting = [nl]) (hnr : d.rhsNonContracting = [nr])
    (h1 : 1 < so.rank) (j : so.Idx) (k : d.contr.Idx) :
    (d.rhsIdx j k nr).val = (j ⟨1, h1⟩).val := by
  have hmem : nr ∈ d.rhsNonContracting := by rw [hnr]; exact List.mem_singleton.mpr rfl
  unfold DotDims.rhsIdx
  rw [dif_neg (by rw [hbr]; exact List.not_mem_nil), dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hbl, hnl, hnr])

/-- A product into the zero accumulator with one contracted axis of extent `K`, at output index `j`: the sum over
    `k : Fin K` of the left operand at `li k` times the right operand at `ri k`, where `li k` and `ri k` are the
    operand indices of contraction coordinate `k`. -/
theorem matmul_zero_single {sl sr so : Shape} {φ₁ φ₂ : FTy} (d : DotDims sl sr so) (prec : Option ContractPrecision) (K : Nat)
    (hr : d.contr.rank = 1) (hs : d.contr.size ⟨0, by omega⟩ = K)
    (L : FVec Ideal sl φ₁) (R : FVec Ideal sr φ₂) (j : so.Idx) (li : Fin K → sl.Idx) (ri : Fin K → sr.Idx)
    (hl : ∀ k, d.lhsIdx j ((contrEquiv1 d K hr hs).symm k) = li k)
    (hrr : ∀ k, d.rhsIdx j ((contrEquiv1 d K hr hs).symm k) = ri k) :
    FloatOps.matmul d prec L R (constant so .f32 0x00000000#32) j = ∑ k : Fin K, L (li k) * R (ri k) := by
  rw [Ideal.matmul_constant_zero_apply, ← Equiv.sum_comp (contrEquiv1 d K hr hs).symm]
  exact Finset.sum_congr rfl fun k _ => by rw [hl k, hrr k]

/-- ROWS TIMES COLUMNS: a product of an `A × K` by a `K × B` matrix into the zero accumulator (left axis 1 against right
    axis 0, no batch axes), at entry `(p, h)`: the sum over `k` of `L[p,k] · R[k,h]`. At a literal dimension record every
    hypothesis is `rfl`. -/
theorem matmul_zero_rows_cols {A K B : Nat} {φ₁ φ₂ : FTy}
    (d : DotDims (⟨2, ![A, K]⟩ : Shape) (⟨2, ![K, B]⟩ : Shape) (⟨2, ![A, B]⟩ : Shape)) (prec : Option ContractPrecision)
    (hr : d.contr.rank = 1) (hs : d.contr.size ⟨0, by omega⟩ = K)
    (hbl : d.lhsBatch = []) (hbr : d.rhsBatch = []) (hnl : d.lhsNonContracting = [0]) (hnr : d.rhsNonContracting = [1])
    (hcl : d.lhsContracting = [1]) (hcr : d.rhsContracting = [0])
    (L : FVec Ideal (⟨2, ![A, K]⟩ : Shape) φ₁) (R : FVec Ideal (⟨2, ![K, B]⟩ : Shape) φ₂) (p : Fin A) (h : Fin B) :
    FloatOps.matmul d prec L R (constant (⟨2, ![A, B]⟩ : Shape) .f32 0x00000000#32) (ix2 p h)
      = ∑ k : Fin K, L (ix2 p k) * R (ix2 k h) := by
  refine matmul_zero_single d prec K hr hs L R (ix2 p h) (fun k => ix2 p k) (fun k => ix2 k h) (fun k => ?_) (fun k => ?_)
  · have hk := contrEquiv1_symm_val d K hr hs k
    exact funext fun a => Fin.ext (by
      match a with
      | ⟨0, _⟩ => exact lhsIdx_val_of_free d hbl hnl Nat.zero_lt_two _ _
      | ⟨1, _⟩ => exact (d.lhsIdx_val_of_single hcl _ _).trans hk)
  · have hk := contrEquiv1_symm_val d K hr hs k
    exact funext fun a => Fin.ext (by
      match a with
      | ⟨0, _⟩ => exact (d.rhsIdx_val_of_single hcr _ _).trans hk
      | ⟨1, _⟩ => exact rhsIdx_val_of_free d hbl hbr hnl hnr Nat.one_lt_two _ _)

/-- COLUMNS TIMES COLUMNS: a product of a `K × A` by a `K × B` matrix into the zero accumulator, contracting the FIRST
    axis of both (the left operand used transposed), at entry `(p, h)`: the sum over `k` of `L[k,p] · R[k,h]`. -/
theorem matmul_zero_cols_cols {A K B : Nat} {φ₁ φ₂ : FTy}
    (d : DotDims (⟨2, ![K, A]⟩ : Shape) (⟨2, ![K, B]⟩ : Shape) (⟨2, ![A, B]⟩ : Shape)) (prec : Option ContractPrecision)
    (hr : d.contr.rank = 1) (hs : d.contr.size ⟨0, by omega⟩ = K)
    (hbl : d.lhsBatch = []) (hbr : d.rhsBatch = []) (hnl : d.lhsNonContracting = [1]) (hnr : d.rhsNonContracting = [1])
    (hcl : d.lhsContracting = [0]) (hcr : d.rhsContracting = [0])
    (L : FVec Ideal (⟨2, ![K, A]⟩ : Shape) φ₁) (R : FVec Ideal (⟨2, ![K, B]⟩ : Shape) φ₂) (p : Fin A) (h : Fin B) :
    FloatOps.matmul d prec L R (constant (⟨2, ![A, B]⟩ : Shape) .f32 0x00000000#32) (ix2 p h)
      = ∑ k : Fin K, L (ix2 k p) * R (ix2 k h) := by
  refine matmul_zero_single d prec K hr hs L R (ix2 p h) (fun k => ix2 k p) (fun k => ix2 k h) (fun k => ?_) (fun k => ?_)
  · have hk := contrEquiv1_symm_val d K hr hs k
    exact funext fun a => Fin.ext (by
      match a with
      | ⟨0, _⟩ => exact (d.lhsIdx_val_of_single hcl _ _).trans hk
      | ⟨1, _⟩ => exact lhsIdx_val_of_free d hbl hnl Nat.zero_lt_two _ _)
  · have hk := contrEquiv1_symm_val d K hr hs k
    exact funext fun a => Fin.ext (by
      match a with
      | ⟨0, _⟩ => exact (d.rhsIdx_val_of_single hcr _ _).trans hk
      | ⟨1, _⟩ => exact rhsIdx_val_of_free d hbl hbr hnl hnr Nat.one_lt_two _ _)

/-- The host's product with one contracted axis, the same way. -/
theorem dotGeneral_single {sl sr so : Shape} {φ₁ φ₂ : FTy} (d : DotDims sl sr so) (prec : Option ContractPrecision)
    (sched : HostSchedule) (K : Nat)
    (hr : d.contr.rank = 1) (hs : d.contr.size ⟨0, by omega⟩ = K)
    (L : FVec Ideal sl φ₁) (R : FVec Ideal sr φ₂) (j : so.Idx) (li : Fin K → sl.Idx) (ri : Fin K → sr.Idx)
    (hl : ∀ k, d.lhsIdx j ((contrEquiv1 d K hr hs).symm k) = li k)
    (hrr : ∀ k, d.rhsIdx j ((contrEquiv1 d K hr hs).symm k) = ri k) :
    FloatOps.dotGeneral d prec sched L R j = ∑ k : Fin K, L (li k) * R (ri k) := by
  rw [Ideal.dotGeneral_apply, ← Equiv.sum_comp (contrEquiv1 d K hr hs).symm]
  exact Finset.sum_congr rfl fun k _ => by rw [hl k, hrr k]

/-- The host's product of an `A × K` by a `K × B` matrix (left axis 1 against right axis 0), at entry `(p, h)`. -/
theorem dotGeneral_rows_cols {A K B : Nat} {φ₁ φ₂ : FTy}
    (d : DotDims (⟨2, ![A, K]⟩ : Shape) (⟨2, ![K, B]⟩ : Shape) (⟨2, ![A, B]⟩ : Shape)) (prec : Option ContractPrecision)
    (sched : HostSchedule)
    (hr : d.contr.rank = 1) (hs : d.contr.size ⟨0, by omega⟩ = K)
    (hbl : d.lhsBatch = []) (hbr : d.rhsBatch = []) (hnl : d.lhsNonContracting = [0]) (hnr : d.rhsNonContracting = [1])
    (hcl : d.lhsContracting = [1]) (hcr : d.rhsContracting = [0])
    (L : FVec Ideal (⟨2, ![A, K]⟩ : Shape) φ₁) (R : FVec Ideal (⟨2, ![K, B]⟩ : Shape) φ₂) (p : Fin A) (h : Fin B) :
    FloatOps.dotGeneral d prec sched L R (ix2 p h) = ∑ k : Fin K, L (ix2 p k) * R (ix2 k h) := by
  refine dotGeneral_single d prec sched K hr hs L R (ix2 p h) (fun k => ix2 p k) (fun k => ix2 k h) (fun k => ?_) (fun k => ?_)
  · have hk := contrEquiv1_symm_val d K hr hs k
    exact funext fun a => Fin.ext (by
      match a with
      | ⟨0, _⟩ => exact lhsIdx_val_of_free d hbl hnl Nat.zero_lt_two _ _
      | ⟨1, _⟩ => exact (d.lhsIdx_val_of_single hcl _ _).trans hk)
  · have hk := contrEquiv1_symm_val d K hr hs k
    exact funext fun a => Fin.ext (by
      match a with
      | ⟨0, _⟩ => exact (d.rhsIdx_val_of_single hcr _ _).trans hk
      | ⟨1, _⟩ => exact rhsIdx_val_of_free d hbl hbr hnl hnr Nat.one_lt_two _ _)

end Idealize.ShloMosaic.Contract

end
-- ==== Proof.LibBatchedContract.lean ====
/-
  A BATCHED matrix product with one contracted axis, read at an output index over the extended reals.

  Both operands carry one batch axis (their axis 0), one free axis (axis 1) and one contracted axis (axis 2): the left
  operand is `[B, M, K]`, the right `[B, N, K]`, the result `[B, M, N]`, and entry `(b, p, q)` is the sum over `k` of
  `L[b, p, k] · R[b, q, k]` — for each batch entry, rows of the left times rows of the right. The output's axes come in
  the order batch, left free, right free; the lemmas below read each operand index coordinate by coordinate.
-/
import proofs.«418899_j35820027248849_3_alg».proof.Proof.LibContract

noncomputable section

open scoped BigOperators

namespace Idealize.ShloMosaic.BatchedContract

open Idealize.ShloMosaic Idealize.ShloMosaic.ValueIdx

private theorem coord_congr {so : Shape} (j : so.Idx) :
    ∀ (p q : Nat) (hp : p < so.rank) (hq : q < so.rank), p = q → (j ⟨p, hp⟩).val = (j ⟨q, hq⟩).val :=
  fun p q hp hq h => by subst h; rfl

/-- On the left operand's ONE batch axis the operand index is the output index's first coordinate. -/
theorem lhsIdx_val_of_batch {sl sr so : Shape} (d : DotDims sl sr so) {bl : Fin sl.rank} (hb : d.lhsBatch = [bl])
    (h0 : 0 < so.rank) (j : so.Idx) (k : d.contr.Idx) : (d.lhsIdx j k bl).val = (j ⟨0, h0⟩).val := by
  have hmem : bl ∈ d.lhsBatch := by rw [hb]; exact List.mem_singleton.mpr rfl
  unfold DotDims.lhsIdx
  rw [dif_pos hmem]
  simp only [Fin.val_cast]
  exact coord_congr j _ _ _ _ (by simp [hb])

/-- With one batch axis before it, the left operand's ONE free axis reads the output index's second coordinate. -/
theorem lhsIdx_val_of_free {sl sr so : Shape} (d : DotDims sl sr so) {bl nl : Fin sl.rank} (hb : d.lhsBatch = [bl])
    (hn : d.lhsNonContracting = [nl]) (hne : nl ≠ bl) (h1 : 1 < so.rank) (j : so.Idx) (k : d.contr.Idx) :
    (d.lhsIdx j k nl).val = (j ⟨1, h1⟩).val := by
  have hmem : nl ∈ d.lhsNonContracting := by rw [hn]; exact List.mem_singleton.mpr rfl
  unfold DotDims.lhsIdx
  rw [dif_neg (by rw [hb]; exact fun h => hne (List.mem_singleton.mp h)), dif_pos hmem]
  simp only [Fin.val_cast]
  exact coord_congr j _ _ _ _ (by simp [hb, hn])

/-- On the right operand's ONE batch axis the operand index is the output index's first coordinate. -/
theorem rhsIdx_val_of_batch {sl sr so : Shape} (d : DotDims sl sr so) {br : Fin sr.rank} (hb : d.rhsBatch = [br])
    (h0 : 0 < so.rank) (j : so.Idx) (k : d.contr.Idx) : (d.rhsIdx j k br).val = (j ⟨0, h0⟩).val := by
  have hmem : br ∈ d.rhsBatch := by rw [hb]; exact List.mem_singleton.mpr rfl
  unfold DotDims.rhsIdx
  rw [dif_pos hmem]
  simp only [Fin.val_cast]
  exact coord_congr j _ _ _ _ (by simp [hb])

/-- With one batch axis and one left free axis before it, the right operand's ONE free axis reads the output index's
    third coordinate. -/
theorem rhsIdx_val_of_free {sl sr so : Shape} (d : DotDims sl sr so) {bl nl : Fin sl.rank} {br nr : Fin sr.rank}
    (hbl : d.lhsBatch = [bl]) (hnl : d.lhsNonContracting = [nl]) (hbr : d.rhsBatch = [br]) (hnr : d.rhsNonContracting = [nr])
    (hne : nr ≠ br) (h2 : 2 < so.rank) (j : so.Idx) (k : d.contr.Idx) :
    (d.rhsIdx j k nr).val = (j ⟨2, h2⟩).val := by
  have hmem : nr ∈ d.rhsNonContracting := by rw [hnr]; exact List.mem_singleton.mpr rfl
  unfold DotDims.rhsIdx
  rw [dif_neg (by rw [hbr]; exact fun h => hne (List.mem_singleton.mp h)), dif_pos hmem]
  simp only [Fin.val_cast]
  exact coord_congr j _ _ _ _ (by simp [hbl, hnl, hnr])

/-- The two operand indices of a batched rows-times-rows product at output entry `(b, p, q)` and contraction
    coordinate `k`: `(b, p, k)` on the left, `(b, q, k)` on the right. -/
theorem operand_indices {B M N K : Nat}
    (d : DotDims (⟨3, ![B, M, K]⟩ : Shape) (⟨3, ![B, N, K]⟩ : Shape) (⟨3, ![B, M, N]⟩ : Shape))
    (hr : d.contr.rank = 1) (hs : d.contr.size ⟨0, by omega⟩ = K)
    (hbl : d.lhsBatch = [0]) (hbr : d.rhsBatch = [0]) (hnl : d.lhsNonContracting = [1]) (hnr : d.rhsNonContracting = [1])
    (hcl : d.lhsContracting = [2]) (hcr : d.rhsContracting = [2]) (b : Fin B) (p : Fin M) (q : Fin N) (k : Fin K) :
    d.lhsIdx (ix3 b p q) ((contrEquiv1 d K hr hs).symm k) = ix3 b p k
      ∧ d.rhsIdx (ix3 b p q) ((contrEquiv1 d K hr hs).symm k) = ix3 b q k := by
  have hk := contrEquiv1_symm_val d K hr hs k
  constructor
  · exact funext fun a => Fin.ext (by
      match a with
      | ⟨0, _⟩ => exact lhsIdx_val_of_batch d hbl (by show 0 < 3; omega) _ _
      | ⟨1, _⟩ => exact lhsIdx_val_of_free d hbl hnl (by show (1 : Fin 3) ≠ 0; decide) (by show 1 < 3; omega) _ _
      | ⟨2, _⟩ => exact (d.lhsIdx_val_of_single hcl _ _).trans hk)
  · exact funext fun a => Fin.ext (by
      match a with
      | ⟨0, _⟩ => exact rhsIdx_val_of_batch d hbr (by show 0 < 3; omega) _ _
      | ⟨1, _⟩ => exact rhsIdx_val_of_free d hbl hnl hbr hnr (by show (1 : Fin 3) ≠ 0; decide) (by show 2 < 3; omega) _ _
      | ⟨2, _⟩ => exact (d.rhsIdx_val_of_single hcr _ _).trans hk)

/-- BATCHED ROWS TIMES ROWS on the matrix unit, into the zero accumulator: entry `(b, p, q)` is the sum over `k` of
    `L[b, p, k] · R[b, q, k]`. At a literal dimension record every hypothesis is `rfl`. -/
theorem matmul_zero_batched {B M N K : Nat} {φ₁ φ₂ : FTy}
    (d : DotDims (⟨3, ![B, M, K]⟩ : Shape) (⟨3, ![B, N, K]⟩ : Shape) (⟨3, ![B, M, N]⟩ : Shape)) (prec : Option ContractPrecision)
    (hr : d.contr.rank = 1) (hs : d.contr.size ⟨0, by omega⟩ = K)
    (hbl : d.lhsBatch = [0]) (hbr : d.rhsBatch = [0]) (hnl : d.lhsNonContracting = [1]) (hnr : d.rhsNonContracting = [1])
    (hcl : d.lhsContracting = [2]) (hcr : d.rhsContracting = [2])
    (L : FVec Ideal (⟨3, ![B, M, K]⟩ : Shape) φ₁) (R : FVec Ideal (⟨3, ![B, N, K]⟩ : Shape) φ₂) (b : Fin B) (p : Fin M) (q : Fin N) :
    FloatOps.matmul d prec L R (constant (⟨3, ![B, M, N]⟩ : Shape) .f32 0x00000000#32) (ix3 b p q)
      = ∑ k : Fin K, L (ix3 b p k) * R (ix3 b q k) :=
  Contract.matmul_zero_single d prec K hr hs L R (ix3 b p q) (fun k => ix3 b p k) (fun k => ix3 b q k)
    (fun k => (operand_indices d hr hs hbl hbr hnl hnr hcl hcr b p q k).1)
    (fun k => (operand_indices d hr hs hbl hbr hnl hnr hcl hcr b p q k).2)

/-- The host's batched rows-times-rows product, the same way. -/
theorem dotGeneral_batched {B M N K : Nat} {φ₁ φ₂ : FTy}
    (d : DotDims (⟨3, ![B, M, K]⟩ : Shape) (⟨3, ![B, N, K]⟩ : Shape) (⟨3, ![B, M, N]⟩ : Shape)) (prec : Option ContractPrecision)
    (sched : HostSchedule)
    (hr : d.contr.rank = 1) (hs : d.contr.size ⟨0, by omega⟩ = K)
    (hbl : d.lhsBatch = [0]) (hbr : d.rhsBatch = [0]) (hnl : d.lhsNonContracting = [1]) (hnr : d.rhsNonContracting = [1])
    (hcl : d.lhsContracting = [2]) (hcr : d.rhsContracting = [2])
    (L : FVec Ideal (⟨3, ![B, M, K]⟩ : Shape) φ₁) (R : FVec Ideal (⟨3, ![B, N, K]⟩ : Shape) φ₂) (b : Fin B) (p : Fin M) (q : Fin N) :
    FloatOps.dotGeneral d prec sched L R (ix3 b p q) = ∑ k : Fin K, L (ix3 b p k) * R (ix3 b q k) :=
  Contract.dotGeneral_single d prec sched K hr hs L R (ix3 b p q) (fun k => ix3 b p k) (fun k => ix3 b q k)
    (fun k => (operand_indices d hr hs hbl hbr hnl hnr hcl hcr b p q k).1)
    (fun k => (operand_indices d hr hs hbl hbr hnl hnr hcl hcr b p q k).2)

end Idealize.ShloMosaic.BatchedContract

end
-- ==== Proof.KernelPayload.lean ====
/-
  What the kernel body stores, read at an index.

  The body loads a block of 256 samples (each 40 field vectors of 64 numbers: 39 fields and one row of padding), views
  it as 64 groups of 4 samples — a group's 4 × 40 = 160 field vectors stacked —, forms for each group the 160 × 160
  matrix of all inner products, keeps the four 40 × 40 diagonal blocks (sample `g` of the group against itself), stacks
  them back in sample order and flattens each sample's 40 × 40 matrix row by row into 1600 numbers. So the stored value
  at sample `4·bg + g` of the block and flat position `40·i + j` is the inner product of fields `i` and `j` of that
  sample: the narrowing to bf16 is the identity on extended reals, and the product into the zero accumulator is a plain
  sum over the 64 features.
-/
import proofs.«418899_j35820027248849_3_alg».proof.Proof.Gen.KernelIdeal.Skeleton
import proofs.«418899_j35820027248849_3_alg».proof.Proof.LibBatchedContract
import Idealize.ShloMosaic.Lib.Pipeline.Value
import Idealize.ShloMosaic.Lib.ValueIdx

noncomputable section

open scoped BigOperators

namespace Cert.KernelIdeal.Hand

open Cert.KernelIdeal Cert.KernelIdeal.Gen Idealize.ShloMosaic Idealize.ShloMosaic.ValueIdx

/-- The block regrouped: field vector `40·g + i` of group `bg` is field `i` of sample `4·bg + g` (the two views have
    the same row-major order), and narrowing to bf16 changes nothing over the extended reals. -/
theorem regroup_apply (x0 : FVec Ideal S256x40x64 .f32) (h1 : S256x40x64.ShapeCasts S256x40x64)
    (h2 : S256x40x64.ShapeCasts S64x160x64) (hb : FTy.bits .bf16 < FTy.bits .f32)
    (bg : Fin 64) (g : Fin 4) (i : Fin 40) (d : Fin 64) :
    (truncf .bf16 (shapeCast S64x160x64 (shapeCast S256x40x64 x0 h1) h2) hb : FVec Ideal S64x160x64 .bf16)
        (ix3 bg (⟨40 * g.val + i.val, by have := g.isLt; have := i.isLt; omega⟩ : Fin 160) d)
      = x0 (ix3 (⟨4 * bg.val + g.val, by have := bg.isLt; have := g.isLt; omega⟩ : Fin 256) i d) := by
  have hbg := bg.isLt; have hg := g.isLt; have hi := i.isLt; have hd := d.isLt
  show shapeCast S64x160x64 (shapeCast S256x40x64 x0 h1) h2 _ = _
  rw [shapeCast_self]
  exact shapeCast_apply _ _ _ _ (by
    rw [Shape.rowMajor_val_three, Shape.rowMajor_val_three]
    show ((4 * bg.val + g.val) * 40 + i.val) * 64 + d.val = (bg.val * 160 + (40 * g.val + i.val)) * 64 + d.val
    omega)

/-- One diagonal block, with its unit axis added: entry `(bg, 0, i, j)` of the piece cut at offset `o = 40·g` on both
    matrix axes is entry `(bg, 40·g + i, 40·g + j)` of the group's 160 × 160 matrix. -/
theorem piece_apply (v4 : FVec Ideal S64x160x160 .f32) (o : Nat) (h : S64x160x160.Slices ![0, o, o] S64x40x40)
    (hc : S64x40x40.ShapeCasts S64x1x40x40) (g : Fin 4) (ho : o = 40 * g.val) (bg : Fin 64) (i j : Fin 40) :
    shapeCast S64x1x40x40 (extractStridedSlice S64x40x40 ![0, o, o] v4 h) hc (ix4 bg (0 : Fin 1) i j)
      = v4 (ix3 bg (⟨40 * g.val + i.val, by have := g.isLt; have := i.isLt; omega⟩ : Fin 160)
              (⟨40 * g.val + j.val, by have := g.isLt; have := j.isLt; omega⟩ : Fin 160)) := by
  have hbg := bg.isLt; have hg := g.isLt; have hi := i.isLt; have hj := j.isLt
  -- the unit axis: [64,1,40,40] at (bg, 0, i, j) reads [64,40,40] at (bg, i, j)
  refine (shapeCast_apply _ _ _ (ix3 bg i j) (by
    rw [Shape.rowMajor_val_three, Shape.rowMajor_val_four]
    show (bg.val * 40 + i.val) * 40 + j.val = ((bg.val * 1 + 0) * 40 + i.val) * 40 + j.val
    omega)).trans ?_
  -- the cut: [64,40,40] at (bg, i, j) reads [64,160,160] at (bg, o + i, o + j)
  exact extractStridedSlice_apply _ _ _ _ _ (fun a => match a with
    | ⟨0, _⟩ => by show bg.val = 0 + bg.val; omega
    | ⟨1, _⟩ => by show 40 * g.val + i.val = o + i.val; omega
    | ⟨2, _⟩ => by show 40 * g.val + j.val = o + j.val; omega)

/-- Four pieces with a unit axis stacked along it: entry `(bg, g, i, j)` of the stack is entry `(bg, 0, i, j)` of piece
    `g`. -/
theorem stack4_apply {α : Type} (p0 p1 p2 p3 : S64x1x40x40.Idx → α)
    (h : Shape.Concatenates [S64x1x40x40, S64x1x40x40, S64x1x40x40, S64x1x40x40] S64x4x40x40 1)
    (bg : Fin 64) (g : Fin 4) (i j : Fin 40) (r : α)
    (hr : ∀ p : S64x1x40x40.Idx → α, (g.val = 0 → p = p0) → (g.val = 1 → p = p1) → (g.val = 2 → p = p2) → (g.val = 3 → p = p3) →
      p (ix4 bg (0 : Fin 1) i j) = r) :
    concatenate S64x4x40x40 1 [⟨S64x1x40x40, p0⟩, ⟨S64x1x40x40, p1⟩, ⟨S64x1x40x40, p2⟩, ⟨S64x1x40x40, p3⟩] h (ix4 bg g i j) = r := by
  have hi4 : ∀ (g' : Fin 4) (b : Fin 4), b.cast (rfl : S64x1x40x40.rank = S64x4x40x40.rank) ≠ (1 : Fin 4) →
      ((ix4 bg (0 : Fin 1) i j : S64x1x40x40.Idx) b).val = ((ix4 bg g' i j : S64x4x40x40.Idx) (b.cast rfl)).val :=
    fun g' b hb => match b with
      | ⟨0, _⟩ => rfl
      | ⟨1, _⟩ => absurd rfl hb
      | ⟨2, _⟩ => rfl
      | ⟨3, _⟩ => rfl
  match g with
  | ⟨0, _⟩ =>
    refine (concatenate_apply_piece (t := S64x4x40x40) (1 : Fin 4) [⟨S64x1x40x40, p0⟩, ⟨S64x1x40x40, p1⟩, ⟨S64x1x40x40, p2⟩, ⟨S64x1x40x40, p3⟩] h (ix4 bg _ i j) 0 (by show (0 : ℕ) < 4; omega) S64x1x40x40 p0 rfl rfl 0 rfl (ix4 bg (0 : Fin 1) i j) (hi4 _) rfl).trans ?_
    exact hr p0 (fun _ => rfl) (fun h => by simp at h) (fun h => by simp at h) (fun h => by simp at h)
  | ⟨1, _⟩ =>
    refine (concatenate_apply_piece (t := S64x4x40x40) (1 : Fin 4) [⟨S64x1x40x40, p0⟩, ⟨S64x1x40x40, p1⟩, ⟨S64x1x40x40, p2⟩, ⟨S64x1x40x40, p3⟩] h (ix4 bg _ i j) 1 (by show (1 : ℕ) < 4; omega) S64x1x40x40 p1 rfl rfl 1 rfl (ix4 bg (0 : Fin 1) i j) (hi4 _) rfl).trans ?_
    exact hr p1 (fun h => by simp at h) (fun _ => rfl) (fun h => by simp at h) (fun h => by simp at h)
  | ⟨2, _⟩ =>
    refine (concatenate_apply_piece (t := S64x4x40x40) (1 : Fin 4) [⟨S64x1x40x40, p0⟩, ⟨S64x1x40x40, p1⟩, ⟨S64x1x40x40, p2⟩, ⟨S64x1x40x40, p3⟩] h (ix4 bg _ i j) 2 (by show (2 : ℕ) < 4; omega) S64x1x40x40 p2 rfl rfl 2 rfl (ix4 bg (0 : Fin 1) i j) (hi4 _) rfl).trans ?_
    exact hr p2 (fun h => by simp at h) (fun h => by simp at h) (fun _ => rfl) (fun h => by simp at h)
  | ⟨3, _⟩ =>
    refine (concatenate_apply_piece (t := S64x4x40x40) (1 : Fin 4) [⟨S64x1x40x40, p0⟩, ⟨S64x1x40x40, p1⟩, ⟨S64x1x40x40, p2⟩, ⟨S64x1x40x40, p3⟩] h (ix4 bg _ i j) 3 (by show (3 : ℕ) < 4; omega) S64x1x40x40 p3 rfl rfl 3 rfl (ix4 bg (0 : Fin 1) i j) (hi4 _) rfl).trans ?_
    exact hr p3 (fun h => by simp at h) (fun h => by simp at h) (fun h => by simp at h) (fun _ => rfl)

/-- THE STORED VALUE at sample `4·bg + g` of the block and flat position `40·i + j`: the inner product of fields `i` and
    `j` of that sample, a sum over the 64 features. -/
theorem pay_at (x0 : Vec Ideal S256x40x64 .f32) (bg : Fin 64) (g : Fin 4) (i j : Fin 40) :
    k0_pay1 (F := Ideal) x0
        (ix2 (⟨4 * bg.val + g.val, by have := bg.isLt; have := g.isLt; omega⟩ : Fin 256)
          (⟨40 * i.val + j.val, by have := i.isLt; have := j.isLt; omega⟩ : Fin 1600))
      = ∑ d : Fin 64,
          (x0 : FVec Ideal S256x40x64 .f32) (ix3 (⟨4 * bg.val + g.val, by have := bg.isLt; have := g.isLt; omega⟩ : Fin 256) i d)
          * (x0 : FVec Ideal S256x40x64 .f32) (ix3 (⟨4 * bg.val + g.val, by have := bg.isLt; have := g.isLt; omega⟩ : Fin 256) j d) := by
  have hbg := bg.isLt; have hg := g.isLt; have hi := i.isLt; have hj := j.isLt
  unfold k0_pay1
  -- the flattening: [256,1600] at (r, 40·i + j) reads [256,40,40] at (r, i, j)
  refine (shapeCast_apply _ _ _
    (ix3 (⟨4 * bg.val + g.val, by omega⟩ : Fin 256) i j) (by
      rw [Shape.rowMajor_val_three, Shape.rowMajor_val_two]
      show ((4 * bg.val + g.val) * 40 + i.val) * 40 + j.val = (4 * bg.val + g.val) * 1600 + (40 * i.val + j.val)
      omega)).trans ?_
  -- samples back from groups: [256,40,40] at (4·bg + g, i, j) reads [64,4,40,40] at (bg, g, i, j)
  refine (shapeCast_apply _ _ _ (ix4 bg g i j) (by
      rw [Shape.rowMajor_val_four, Shape.rowMajor_val_three]
      show ((bg.val * 4 + g.val) * 40 + i.val) * 40 + j.val = ((4 * bg.val + g.val) * 40 + i.val) * 40 + j.val
      omega)).trans ?_
  -- the stack of the four diagonal blocks, then the block itself, then the product
  refine stack4_apply _ _ _ _ _ bg g i j _ (fun p e0 e1 e2 e3 => ?_)
  have hp : p (ix4 bg (0 : Fin 1) i j)
      = (matmul dot_S64x160x64_S64x160x64_S64x160x160_2_2_1_1_0_0 none
          (truncf .bf16 (shapeCast S64x160x64 (shapeCast S256x40x64 x0 shapeCasts_S256x40x64_S256x40x64) shapeCasts_S256x40x64_S64x160x64) bitsLt_bf16_f32)
          (truncf .bf16 (shapeCast S64x160x64 (shapeCast S256x40x64 x0 shapeCasts_S256x40x64_S256x40x64) shapeCasts_S256x40x64_S64x160x64) bitsLt_bf16_f32)
          (constant (F := Ideal) S64x160x160 .f32 0x00000000#32) : FVec Ideal S64x160x160 .f32)
        (ix3 bg (⟨40 * g.val + i.val, by omega⟩ : Fin 160) (⟨40 * g.val + j.val, by omega⟩ : Fin 160)) := by
    rcases (by omega : g.val = 0 ∨ g.val = 1 ∨ g.val = 2 ∨ g.val = 3) with h | h | h | h
    · rw [e0 h]; exact piece_apply _ 0 _ _ g (by omega) bg i j
    · rw [e1 h]; exact piece_apply _ 40 _ _ g (by omega) bg i j
    · rw [e2 h]; exact piece_apply _ 80 _ _ g (by omega) bg i j
    · rw [e3 h]; exact piece_apply _ 120 _ _ g (by omega) bg i j
  rw [hp]
  refine (BatchedContract.matmul_zero_batched dot_S64x160x64_S64x160x64_S64x160x160_2_2_1_1_0_0 none rfl rfl rfl rfl rfl rfl rfl rfl
    _ _ bg _ _).trans ?_
  exact Finset.sum_congr rfl fun d _ => by
    rw [regroup_apply x0 _ _ _ bg g i d, regroup_apply x0 _ _ _ bg g j d]

/-- The same at any index `(r, q)` of the stored block: the two fields are `q / 40` and `q % 40`. -/
theorem pay_apply (x0 : Vec Ideal S256x40x64 .f32) (y : S256x1600.Idx) :
    k0_pay1 (F := Ideal) x0 y
      = ∑ d : Fin 64,
          (x0 : FVec Ideal S256x40x64 .f32) (ix3 (⟨(y 0).val, idx2_lt0 y⟩ : Fin 256) (⟨(y 1).val / 40, by have := idx2_lt1 y; omega⟩ : Fin 40) d)
          * (x0 : FVec Ideal S256x40x64 .f32) (ix3 (⟨(y 0).val, idx2_lt0 y⟩ : Fin 256) (⟨(y 1).val % 40, by omega⟩ : Fin 40) d) := by
  have h0 : (y 0).val < 256 := idx2_lt0 y
  have h1 : (y 1).val < 1600 := idx2_lt1 y
  have hy : y = ix2 (⟨4 * ((y 0).val / 4) + (y 0).val % 4, by omega⟩ : Fin 256)
      (⟨40 * ((y 1).val / 40) + (y 1).val % 40, by omega⟩ : Fin 1600) :=
    funext fun a => Fin.ext (match a with
      | ⟨0, _⟩ => by show (y 0).val = 4 * ((y 0).val / 4) + (y 0).val % 4; omega
      | ⟨1, _⟩ => by show (y 1).val = 40 * ((y 1).val / 40) + (y 1).val % 40; omega)
  refine (congrArg (k0_pay1 (F := Ideal) x0) hy).trans ?_
  refine (pay_at x0 (⟨(y 0).val / 4, by omega⟩ : Fin 64) (⟨(y 0).val % 4, by omega⟩ : Fin 4)
    (⟨(y 1).val / 40, by omega⟩ : Fin 40) (⟨(y 1).val % 40, by omega⟩ : Fin 40)).trans ?_
  have e : (⟨4 * ((y 0).val / 4) + (y 0).val % 4, by omega⟩ : Fin 256) = ⟨(y 0).val, h0⟩ := Fin.ext (by show 4 * ((y 0).val / 4) + (y 0).val % 4 = (y 0).val; omega)
  rw [e]

end Cert.KernelIdeal.Hand

end
-- ==== Proof.KernelArray.lean ====
/-
  The kernel's output array after the run.

  The pipeline walks the 16384 samples in 64 blocks of 256. At block `t` the body reads samples `256·t … 256·t + 255` of
  the padded input and writes back, for each of them, its flattened 40 × 40 matrix of inner products. Every index of the
  `[16384, 1600]` output lies in exactly one block (sample `b` in block `b / 256`), so after the run the array is ONE
  function of the padded input: `gramFlat`, the inner product of padded fields `q / 40` and `q % 40` of sample `b` at flat
  position `q`.
-/
import proofs.«418899_j35820027248849_3_alg».proof.Proof.Gen.KernelIdeal.Frame
import proofs.«418899_j35820027248849_3_alg».proof.Proof.KernelPayload
import Idealize.ShloMosaic.Lib.Pipeline.Value
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (m : (ℓ : Loc nD τ sig) → Buf (Elt Ideal) ℓ) (ρ : Dev nD → PrngReg)

/-- The flattened per-sample matrices of inner products of a padded input `P : [16384, 40, 64]`. -/
def gramFlat (P : FVec Ideal S16384x40x64 .f32) : FVec Ideal S16384x1600 .f32 := fun y =>
  ∑ d : Fin 64,
    P (ix3 (⟨(y 0).val, idx2_lt0 y⟩ : Fin 16384) (⟨(y 1).val / 40, by have := idx2_lt1 y; omega⟩ : Fin 40) d)
    * P (ix3 (⟨(y 0).val, idx2_lt0 y⟩ : Fin 16384) (⟨(y 1).val % 40, by omega⟩ : Fin 40) d)

/-- `gramFlat` at sample `b` and flat position `q`, the two fields named. -/
theorem gramFlat_apply (P : FVec Ideal S16384x40x64 .f32) (b : Fin 16384) (q : Fin 1600) (i j : Fin 40)
    (hi : i.val = q.val / 40) (hj : j.val = q.val % 40) :
    gramFlat P (ix2 b q) = ∑ d : Fin 64, P (ix3 b i d) * P (ix3 b j d) := by
  rw [show i = ⟨q.val / 40, by have := q.isLt; omega⟩ from Fin.ext hi, show j = ⟨q.val % 40, by omega⟩ from Fin.ext hj]
  rfl

/-- The padded input as the pipeline finds it, and the input window's block at a point, at their literal types. -/
abbrev padded (c : Dev nD) : FVec Ideal S16384x40x64 .f32 := V m c main_v0
abbrev xblk (c : Dev nD) (t : Fin cfg0.N) : FVec Ideal S256x40x64 .f32 := iblk m c 0 t

theorem lt64 (t : Fin cfg0.N) : t.val < 64 := lt_of_lt_of_eq t.isLt N_0

/-- The printed index maps, decided over the 64 points: both windows move along the sample axis with the point. -/
theorem idx_facts : ∀ t : Fin cfg0.N, win0_0.index t (0 : Fin 3) = t.val ∧ win0_0.index t (1 : Fin 3) = 0
    ∧ win0_0.index t (2 : Fin 3) = 0 ∧ win0_1.index t (0 : Fin 2) = t.val ∧ win0_1.index t (1 : Fin 2) = 0 :=
  (by decide +kernel : ∀ t : Fin grid0.N, _)

/-- The input block at point `t` is samples `256·t …` of the padded input. -/
theorem xblk_apply (c : Dev nD) (t : Fin cfg0.N) (r : Fin 256) (i : Fin 40) (d : Fin 64) :
    xblk m c t (ix3 r i d)
      = padded m c (ix3 (⟨256 * t.val + r.val, by have := lt64 t; have := r.isLt; omega⟩ : Fin 16384) i d) := by
  obtain ⟨e0, e1, e2, -, -⟩ := idx_facts t
  show V m c main_v0 (((cfg0.win 0).blk t).view.emb (ix3 r i d)) = V m c main_v0 _
  refine congrArg (V m c main_v0) (funext fun a => Fin.ext ?_)
  match a with
  | ⟨0, _⟩ => show win0_0.index t (0 : Fin 3) * 256 + 1 * r.val = 256 * t.val + r.val; rw [e0]; omega
  | ⟨1, _⟩ => show win0_0.index t (1 : Fin 3) * 40 + 1 * i.val = i.val; rw [e1]; omega
  | ⟨2, _⟩ => show win0_0.index t (2 : Fin 3) * 64 + 1 * d.val = d.val; rw [e2]; omega

theorem hz2 : (![0, 0] : Fin 2 → Nat) = fun _ => 0 := funext fun a => by fin_cases a <;> rfl
theorem hz3 : (![0, 0, 0] : Fin 3 → Nat) = fun _ => 0 := funext fun a => by fin_cases a <;> rfl

/-- Where the output window's block at point `t` sits in the array: sample `256·t + r`, the same flat position. -/
theorem oblk_emb (t : Fin cfg0.N) (y : S256x1600.Idx) :
    ((cfg0.win 1).blk t).view.emb y
      = ix2 (⟨256 * t.val + (y 0).val, by have := lt64 t; have := idx2_lt0 y; omega⟩ : Fin 16384)
          (⟨(y 1).val, idx2_lt1 y⟩ : Fin 1600) := by
  obtain ⟨-, -, -, e3, e4⟩ := idx_facts t
  refine funext fun a => Fin.ext ?_
  match a with
  | ⟨0, _⟩ => show win0_1.index t (0 : Fin 2) * 256 + 1 * (y 0).val = 256 * t.val + (y 0).val; rw [e3]; omega
  | ⟨1, _⟩ => show win0_1.index t (1 : Fin 2) * 1600 + 1 * (y 1).val = (y 1).val; rw [e4]; omega

/-- WHAT POINT `t` WRITES BACK is block `t` of `gramFlat` of the padded input. -/
theorem flushed_eq (c : Dev nD) (t : Fin cfg0.N) :
    (dats m 0 c).flushed 1 t = ((cfg0.win 1).blk t).view.read (Elt Ideal) (gramFlat (padded m c)) := by
  show (cfg0.win 1).cut (grid0.coords t) ((dats m 0 c).after 1 t) = _
  rw [after0_1]
  unfold out0_1
  rw [View.canon_unit_zero hz2]
  simp only [View.ld_unit_zero (S := S256x40x64) hz3]
  funext y
  show k0_pay1 (F := Ideal) (xblk m c t) y = gramFlat (padded m c) (((cfg0.win 1).blk t).view.emb y)
  refine (pay_apply (xblk m c t) y).trans ?_
  refine Eq.trans ?_ (congrArg (gramFlat (padded m c)) (oblk_emb t y).symm)
  have hb : 256 * t.val + (y 0).val < 16384 := by have := lt64 t; have h0 : (y 0).val < 256 := (y 0).isLt; omega
  have hq : (y 1).val < 1600 := (y 1).isLt
  rw [gramFlat_apply (padded m c) (⟨256 * t.val + (y 0).val, hb⟩ : Fin 16384) (⟨(y 1).val, hq⟩ : Fin 1600)
    (⟨(y 1).val / 40, by omega⟩ : Fin 40) (⟨(y 1).val % 40, by omega⟩ : Fin 40) rfl rfl]
  exact Finset.sum_congr rfl fun d _ => by rw [xblk_apply m c t, xblk_apply m c t]

/-- An index of the array is in point `t`'s block iff each coordinate is in the block's range on its axis. -/
theorem mem_blk1 (t : Fin cfg0.N) (i : S16384x1600.Idx) :
    i ∈ ((cfg0.win 1).blk t).view.set ↔ ∀ a : Fin 2, win0_1.index t a * S256x1600.size a ≤ (i a).val
      ∧ (i a).val < win0_1.index t a * S256x1600.size a + S256x1600.size a := by
  show i ∈ ((View.whole main_v1).slice (win0_1.rect t)).set ↔ _
  rw [View.set_slice_whole, Rect.mem_set_unit]
  exact Iff.rfl

/-- THE OUTPUT ARRAY after the run: `gramFlat` of the padded input (sample `b` is covered by block `b / 256`). -/
theorem final1 (c : Dev nD) : (dats m 0 c).arrAt 1 cfg0.N = gramFlat (padded m c) :=
  (dats m 0 c).arrAt_eq_of_cover 1 (gramFlat (padded m c)) (fun t _ => flushed_eq m c t) fun i => by
    have hi0 : (i 0).val < 16384 := (i 0).isLt
    have hi1 : (i 1).val < 1600 := (i 1).isLt
    have ht : (i 0).val / 256 < cfg0.N := by rw [show cfg0.N = 64 from N_0]; omega
    obtain ⟨-, -, -, e3, e4⟩ := idx_facts ⟨(i 0).val / 256, ht⟩
    refine ⟨⟨(i 0).val / 256, ht⟩, flush0_1 _, ?_⟩
    rw [mem_blk1]
    intro a
    match a with
    | ⟨0, _⟩ =>
      show win0_1.index ⟨(i 0).val / 256, ht⟩ (0 : Fin 2) * 256 ≤ (i 0).val
        ∧ (i 0).val < win0_1.index ⟨(i 0).val / 256, ht⟩ (0 : Fin 2) * 256 + 256
      rw [e3]; show (i 0).val / 256 * 256 ≤ (i 0).val ∧ (i 0).val < (i 0).val / 256 * 256 + 256; omega
    | ⟨1, _⟩ =>
      show win0_1.index ⟨(i 0).val / 256, ht⟩ (1 : Fin 2) * 1600 ≤ (i 1).val
        ∧ (i 1).val < win0_1.index ⟨(i 0).val / 256, ht⟩ (1 : Fin 2) * 1600 + 1600
      rw [e4]; omega

end Cert.KernelIdeal.Hand

end
-- ==== Proof.Tables.lean ====
/-
  The two programs' tables of pairs, and the one relation between them.

  The reference lists the 741 pairs `(i, j)`, `i < j < 39`, as two tables: the row `i` and the column `j` of pair `k`.
  The kernel's program flattens a padded 40 × 40 matrix row by row and lists ONE table: the flat position `40·i + j` of
  pair `k`. Decided here, entry by entry over the 741 pairs: the kernel's table IS `40·row + column` of the reference's
  two, and every row and column is below 39. All entries are small non-negative words, so reading one as a signed
  integer gives the same number.
-/
import proofs.«418899_j35820027248849_3_alg».proof.KernelIdeal
import proofs.«418899_j35820027248849_3_alg».proof.ReferenceIdeal

namespace Cert.PairGram

/-- The first field of pair `k` (the reference's row table). -/
def rowOf (k : Fin 741) : ℕ := (Cert.ReferenceIdeal.lit0 k).toNat
/-- The second field of pair `k` (the reference's column table). -/
def colOf (k : Fin 741) : ℕ := (Cert.ReferenceIdeal.lit1 k).toNat

/-- Entry by entry: the kernel's flat position is `40·row + column`, and rows and columns are field numbers. -/
theorem table_facts : ∀ k : Fin 741,
    (Cert.KernelIdeal.lit0 k).toNat = 40 * (Cert.ReferenceIdeal.lit0 k).toNat + (Cert.ReferenceIdeal.lit1 k).toNat
    ∧ (Cert.ReferenceIdeal.lit0 k).toNat < 39 ∧ (Cert.ReferenceIdeal.lit1 k).toNat < 39 := by
  decide +kernel

theorem rowOf_lt (k : Fin 741) : rowOf k < 39 := (table_facts k).2.1
theorem colOf_lt (k : Fin 741) : colOf k < 39 := (table_facts k).2.2
theorem flat_eq (k : Fin 741) : (Cert.KernelIdeal.lit0 k).toNat = 40 * rowOf k + colOf k := (table_facts k).1

/-- A word below `2^31` read as a signed integer is its value: non-negative, and the same natural number. -/
theorem toInt_of_small (q : BitVec 32) (h : q.toNat < 2147483648) : 0 ≤ q.toInt ∧ q.toInt.toNat = q.toNat := by
  have e : q.toInt = (q.toNat : Int) := BitVec.toInt_eq_toNat_of_lt (by omega)
  rw [e]
  exact ⟨Int.natCast_nonneg _, Int.toNat_natCast _⟩

theorem row_toInt (k : Fin 741) : 0 ≤ (Cert.ReferenceIdeal.lit0 k).toInt ∧ (Cert.ReferenceIdeal.lit0 k).toInt.toNat = rowOf k :=
  toInt_of_small _ (by have := rowOf_lt k; unfold rowOf at this; omega)
theorem col_toInt (k : Fin 741) : 0 ≤ (Cert.ReferenceIdeal.lit1 k).toInt ∧ (Cert.ReferenceIdeal.lit1 k).toInt.toNat = colOf k :=
  toInt_of_small _ (by have := colOf_lt k; unfold colOf at this; omega)
theorem flat_toInt (k : Fin 741) :
    0 ≤ (Cert.KernelIdeal.lit0 k).toInt ∧ (Cert.KernelIdeal.lit0 k).toInt.toNat = 40 * rowOf k + colOf k := by
  have h := flat_eq k
  have h1 := rowOf_lt k
  have h2 := colOf_lt k
  have := toInt_of_small (Cert.KernelIdeal.lit0 k) (by omega)
  exact ⟨this.1, this.2.trans h⟩

end Cert.PairGram
-- ==== Proof.GramSpec.lean ====
/-
  The result both programs compute, as ONE function of the input.

  The input is `x : [16384, 39, 64]`: for each of 16384 samples, 39 field vectors of 64 numbers. The result is
  `[16384, 741]`: for each sample and each of the 741 pairs of fields `(i, j)` with `i < j`, listed in a fixed order,
  the inner product `∑_d x[b, i, d] · x[b, j, d]` over the extended reals. The order of the pairs is a pair of tables
  `R, C : Fin 741 → ℕ` (the row and the column of pair `k`); the function below takes them as parameters and clamps
  each entry into `[0, 38]`, which is how a gather reads a start index.
-/
import Idealize.ShloMosaic.PureOps.Ideal
import Idealize.ShloMosaic.Lib.ValueIdx

noncomputable section

open scoped BigOperators

namespace Cert.PairGram

open Idealize.ShloMosaic Idealize.ShloMosaic.ValueIdx

/-- The input's shape: samples × fields × features. -/
abbrev SX : Shape := ⟨3, ![16384, 39, 64]⟩
/-- The result's shape: samples × pairs of fields. -/
abbrev SP : Shape := ⟨2, ![16384, 741]⟩

/-- The inner product of fields `i` and `j` of sample `b`. -/
def dotFields (x : FVec Ideal SX .f32) (b : Fin 16384) (i j : Fin 39) : EReal :=
  ∑ d : Fin 64, x (ix3 b i d) * x (ix3 b j d)

/-- Entry `(b, k)` of the result: the inner product of the two fields of sample `b` that pair `k` names. -/
def pairGram (R C : Fin 741 → ℕ) (x : FVec Ideal SX .f32) : FVec Ideal SP .f32 := fun y =>
  dotFields x ⟨(y 0).val, idx2_lt0 y⟩
    ⟨min (R ⟨(y 1).val, idx2_lt1 y⟩) 38, by omega⟩ ⟨min (C ⟨(y 1).val, idx2_lt1 y⟩) 38, by omega⟩

end Cert.PairGram

end
-- ==== Proof.LibGatherCols.lean ====
/-
  A gather of whole columns, read at an index.

  The operand is a matrix `x : [D, N]`; the start indices are a column `idx : [R, 1]` of integers; the result is the
  matrix `[D, R]` whose column `t` is the operand's column number `idx[t, 0]`. In StableHLO's vocabulary: offset axis
  `0` of the result runs over the operand's axis `0` (slice size `D`), the operand's axis `1` is collapsed (slice size
  `1`) and is the one axis the start index names, and the index vector lies along axis `1` of the start indices. The
  start index is read as a signed integer and clamped into `[0, N − 1]`, as every gather clamps.
-/
import Idealize.ShloMosaic.PureOps
import Idealize.ShloMosaic.Lib.ValueIdx

noncomputable section

namespace Idealize.ShloMosaic.GatherCols

open Idealize.ShloMosaic Idealize.ShloMosaic.ValueIdx

variable {α : Type}

/-- The dimension numbers of a gather of columns: operand `[D, N]`, start indices `[R, 1]`, result `[D, R]`; the
    result's axis `0` is the offset axis, the operand's axis `1` is collapsed and is the axis a start index names, the
    index vector lies along the start indices' axis `1`, and a slice is one whole column. -/
abbrev colDims (D N R : Nat)
    (wf : GatherDims.WF ⟨2, ![D, N]⟩ ⟨2, ![R, 1]⟩ ⟨2, ![D, R]⟩ [0] [1] [] [1] [] 1 ![D, 1]) :
    GatherDims ⟨2, ![D, N]⟩ ⟨2, ![R, 1]⟩ ⟨2, ![D, R]⟩ where
  offsetDims := [0]
  collapsedSliceDims := [1]
  operandBatchingDims := []
  startIndicesBatchingDims := []
  startIndexMap := [1]
  indexVectorDim := 1
  sliceSizes := ![D, 1]
  wf := wf

/-- The place `[t, 0]` in the start indices where the result's column `t` reads its column number. -/
abbrev colIdx {D R : Nat} (y : (⟨2, ![D, R]⟩ : Shape).Idx) : (⟨2, ![R, 1]⟩ : Shape).Idx :=
  ix2 (⟨(y 1).val, idx2_lt1 y⟩ : Fin R) (⟨0, Nat.one_pos⟩ : Fin 1)

/-- On the operand's row axis the gather reads the result's own row: no start index, no batching, the offset
    coordinate is the result's coordinate on its offset axis. -/
theorem operandIdx_row {D N R w : Nat}
    (wf : GatherDims.WF ⟨2, ![D, N]⟩ ⟨2, ![R, 1]⟩ ⟨2, ![D, R]⟩ [0] [1] [] [1] [] 1 ![D, 1])
    (idx : IVec ⟨2, ![R, 1]⟩ w) (y : (⟨2, ![D, R]⟩ : Shape).Idx) :
    ((colDims D N R wf).operandIdx y idx 0).val = (y 0).val := by
  show (colDims D N R wf).start y idx 0 + (colDims D N R wf).batchCoord y 0 + (colDims D N R wf).offCoord y 0 = _
  rw [GatherDims.batchCoord_eq_zero _ _ _ List.not_mem_nil]
  have hstart : (colDims D N R wf).start y idx 0 = 0 := by
    unfold GatherDims.start
    rw [dif_neg (fun h : (0 : Fin 2) ∈ (colDims D N R wf).startIndexMap =>
      absurd (congrArg Fin.val (List.mem_singleton.mp h)) Nat.zero_ne_one)]
  have hk : (0 : Fin 2) ∈ (colDims D N R wf).sKept :=
    (GatherDims.mem_sKept _ _).mpr ⟨fun h => absurd (congrArg Fin.val (List.mem_singleton.mp h)) Nat.zero_ne_one, List.not_mem_nil⟩
  rw [hstart]
  unfold GatherDims.offCoord
  rw [dif_pos hk]
  simp only [Nat.zero_add, Nat.add_zero]
  rfl

/-- On the operand's column axis the gather reads the clamped start index: the axis is collapsed, so the offset
    coordinate is zero, and there is no batching. -/
theorem operandIdx_col {D N R w : Nat}
    (wf : GatherDims.WF ⟨2, ![D, N]⟩ ⟨2, ![R, 1]⟩ ⟨2, ![D, R]⟩ [0] [1] [] [1] [] 1 ![D, 1])
    (idx : IVec ⟨2, ![R, 1]⟩ w) (y : (⟨2, ![D, R]⟩ : Shape).Idx) :
    ((colDims D N R wf).operandIdx y idx 1).val = min (idx (colIdx y)).toInt.toNat (N - 1) := by
  show (colDims D N R wf).start y idx 1 + (colDims D N R wf).batchCoord y 1 + (colDims D N R wf).offCoord y 1 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (1 : Fin 2) ∈ (colDims D N R wf).startIndexMap from List.mem_singleton.mpr rfl)]
  have hsi : (colDims D N R wf).siIdx y ⟨List.idxOf (1 : Fin 2) (colDims D N R wf).startIndexMap,
      List.idxOf_lt_length_iff.2 (List.mem_singleton.mpr rfl)⟩ = colIdx y := by
    funext b; refine Fin.ext ?_
    match b with
    | ⟨0, _⟩ => rfl
    | ⟨1, _⟩ => rfl
  rw [hsi]
  rfl

/-- THE GATHER READ AT `(j, t)`: the operand's row `j` at the column whose number is the start index `idx[t, 0]`, read
    signed and clamped into `[0, N − 1]`. -/
theorem gather_cols_apply {D N R w : Nat} (hN : 0 < N)
    (wf : GatherDims.WF ⟨2, ![D, N]⟩ ⟨2, ![R, 1]⟩ ⟨2, ![D, R]⟩ [0] [1] [] [1] [] 1 ![D, 1])
    (x : (⟨2, ![D, N]⟩ : Shape).Idx → α) (idx : IVec ⟨2, ![R, 1]⟩ w) (y : (⟨2, ![D, R]⟩ : Shape).Idx) :
    Host.gather (colDims D N R wf) x idx y
      = x (ix2 (⟨(y 0).val, idx2_lt0 y⟩ : Fin D)
          (⟨min (idx (colIdx y)).toInt.toNat (N - 1), by omega⟩ : Fin N)) := by
  unfold Host.gather
  congr 1
  funext a
  refine Fin.ext ?_
  match a with
  | ⟨0, _⟩ => exact operandIdx_row wf idx y
  | ⟨1, _⟩ => exact operandIdx_col wf idx y

end Idealize.ShloMosaic.GatherCols

end
-- ==== Proof.LibGatherClamp.lean ====
/-
  `stablehlo.gather` sees its start indices only through a clamp.

  Every start index is read as a signed integer and clamped so that the slice fits: on an operand axis `a` named by the
  start index map the slice starts at `min (max idx 0) (size a − slice a)`. So two arrays of start indices that agree
  AFTER that clamp gather the same elements, whatever they are before it. The second half is about one 32-bit word
  `q ≥ 0` (signed): jnp's wrap of a negative index, `select (q < 0) (q + n) q`, leaves it alone; jnp's clip to
  `[0, hi]`, `minimum hi (maximum 0 q)`, is `min q hi`; and a clip to `[0, M]` disappears under a clamp to `[0, M]`:
  `min (min q M) M = min q M`. Together: clipping non-negative row numbers to the table before a gather of rows changes
  nothing the gather reads.
-/
import Idealize.ShloMosaic.PureOps
import Idealize.ShloMosaic.Lib.ValueIdx

noncomputable section

namespace Idealize.ShloMosaic.GatherClamp

open Idealize.ShloMosaic

/-- Start indices that agree after the gather's own clamp, on every operand axis the start index map names, give the
    same gather: the operand index is the clamped start plus coordinates that do not look at the start indices. -/
theorem gather_congr_of_clamp {α : Type} {s si t : Shape} {w : Nat} (d : GatherDims s si t) (x : s.Idx → α)
    (idx idx' : IVec si w)
    (h : ∀ a ∈ d.startIndexMap, ∀ i : si.Idx,
      min (idx i).toInt.toNat (s.size a - d.sliceSizes a) = min (idx' i).toInt.toNat (s.size a - d.sliceSizes a)) :
    Host.gather d x idx = Host.gather d x idx' := by
  funext j
  unfold Host.gather
  congr 1
  funext a
  apply Fin.ext
  show d.start j idx a + d.batchCoord j a + d.offCoord j a = d.start j idx' a + d.batchCoord j a + d.offCoord j a
  congr 2
  unfold GatherDims.start
  split
  · rename_i ha; exact h a ha _
  · rfl

/-! ## One non-negative word -/

theorem toInt_zero32 : (0#32 : BitVec 32).toInt = 0 := by decide

/-- The signed test `q < 0` fails on a non-negative word. -/
theorem slt_zero_of_nonneg (q : BitVec 32) (h : 0 ≤ q.toInt) : IntOp.cmpi .slt q 0#32 = 0#1 := by
  unfold IntOp.cmpi
  have : q.slt 0#32 = false := by
    simp only [BitVec.slt, toInt_zero32, decide_eq_false_iff_not]; omega
  rw [this]; rfl

/-- jnp's wrap of a negative index (`q + n` where `q < 0`) leaves a non-negative word as it is. -/
theorem wrap_of_nonneg (q n : BitVec 32) (h : 0 ≤ q.toInt) :
    Scalar.select (IntOp.cmpi .slt q 0#32) (IntOp.addi q n) q = q := by
  rw [slt_zero_of_nonneg q h]; exact ValueIdx.select_zero _ _

/-- The signed maximum with zero of a non-negative word is the word. -/
theorem maxsi_zero_of_nonneg (q : BitVec 32) (h : 0 ≤ q.toInt) : IntOp.maxsi 0#32 q = q := by
  unfold IntOp.maxsi
  have : q.slt 0#32 = false := by
    simp only [BitVec.slt, toInt_zero32, decide_eq_false_iff_not]; omega
  rw [this]; rfl

/-- The signed minimum as a case split on the values. -/
theorem minsi_eq (a b : BitVec 32) : IntOp.minsi a b = if a.toInt < b.toInt then a else b := by
  unfold IntOp.minsi
  simp only [BitVec.slt, decide_eq_true_eq]

/-- THE CLIP UNDER THE CLAMP. For a non-negative word `q` and a bound `hi` of value `M`: the clip `minimum hi (maximum 0 q)`,
    read signed and clamped to `[0, M]`, is `q` read signed and clamped to `[0, M]`. -/
theorem clamp_clip_of_nonneg (q hi : BitVec 32) (M : Nat) (hq : 0 ≤ q.toInt) (hhi : hi.toInt = (M : Int)) :
    min (IntOp.minsi hi (IntOp.maxsi 0#32 q)).toInt.toNat M = min q.toInt.toNat M := by
  rw [maxsi_zero_of_nonneg q hq, minsi_eq]
  split
  · rename_i hlt
    rw [hhi] at hlt ⊢
    simp only [Int.toNat_natCast]
    omega
  · rfl

/-- The same after jnp's wrap on both sides (neither does anything to a non-negative word): what a gather of rows reads
    at the clipped-then-wrapped index is what it reads at the wrapped index. -/
theorem clamp_wrap_clip_of_nonneg (q hi n : BitVec 32) (M : Nat) (hq : 0 ≤ q.toInt) (hhi : hi.toInt = (M : Int)) :
    min (Scalar.select (IntOp.cmpi .slt (IntOp.minsi hi (IntOp.maxsi 0#32 q)) 0#32)
        (IntOp.addi (IntOp.minsi hi (IntOp.maxsi 0#32 q)) n) (IntOp.minsi hi (IntOp.maxsi 0#32 q))).toInt.toNat M
      = min (Scalar.select (IntOp.cmpi .slt q 0#32) (IntOp.addi q n) q).toInt.toNat M := by
  have hc : 0 ≤ (IntOp.minsi hi (IntOp.maxsi 0#32 q)).toInt := by
    rw [maxsi_zero_of_nonneg q hq, minsi_eq]
    split
    · rw [hhi]; exact Int.natCast_nonneg M
    · exact hq
  rw [wrap_of_nonneg _ n hc, wrap_of_nonneg q n hq]
  exact clamp_clip_of_nonneg q hi M hq hhi

end Idealize.ShloMosaic.GatherClamp

end
-- ==== Proof.LibPad.lean ====
/-
  A padded array read at an index that falls on an element of the operand.

  `pad` lays the operand's element `k` at position `lo + k · (interior + 1)` on every axis and the padding value
  everywhere else. So a result index whose every coordinate has that form reads the operand at `k`.
-/
import Idealize.ShloMosaic.PureOps

namespace Idealize.ShloMosaic.PadRead

open Idealize.ShloMosaic

/-- THE PADDED ARRAY AT AN ELEMENT'S POSITION is the element. -/
theorem pad_apply_of_mem {α : Type} {s t u : Shape} (lo hi interior : Fin s.rank → Nat) (x : s.Idx → α) (v : u.Idx → α)
    (h : s.Pads lo hi interior t) (hu : 0 < u.numel) (j : t.Idx) (k : s.Idx)
    (hk : ∀ a : Fin s.rank, (j (a.cast h.1)).val = lo a + (k a).val * (interior a + 1)) :
    pad t lo hi interior x v h hu j = x k := by
  have hin : ∀ a : Fin s.rank, lo a ≤ (j (a.cast h.1)).val ∧ ((j (a.cast h.1)).val - lo a) % (interior a + 1) = 0
      ∧ ((j (a.cast h.1)).val - lo a) / (interior a + 1) < s.size a := fun a => by
    rw [hk a, Nat.add_sub_cancel_left]
    exact ⟨Nat.le_add_right _ _, Nat.mul_mod_left _ _, by rw [Nat.mul_div_cancel _ (Nat.succ_pos _)]; exact (k a).isLt⟩
  unfold pad
  simp only [dif_pos hin]
  refine congrArg x (funext fun a => Fin.ext ?_)
  show ((j (a.cast h.1)).val - lo a) / (interior a + 1) = (k a).val
  rw [hk a, Nat.add_sub_cancel_left, Nat.mul_div_cancel _ (Nat.succ_pos _)]

end Idealize.ShloMosaic.PadRead
-- ==== Proof.KernelTail.lean ====
/-
  The kernel program's result.

  Before the pipeline the host pads the field axis from 39 to 40 with a zero row; after it the host gathers, out of each
  sample's 1600 flattened inner products, the 741 at the flat positions of the pair table (after jnp's wrap of negative
  indices, which leaves the table's non-negative entries alone). Flat position `40·i + j` with `i, j < 39` holds the inner
  product of padded fields `i` and `j`, which are the input's own fields: the padding row is never read. So the result is
  the pair list of inner products of the input.
-/
import proofs.«418899_j35820027248849_3_alg».proof.Proof.KernelArray
import proofs.«418899_j35820027248849_3_alg».proof.Proof.Tables
import proofs.«418899_j35820027248849_3_alg».proof.Proof.GramSpec
import proofs.«418899_j35820027248849_3_alg».proof.Proof.LibGatherCols
import proofs.«418899_j35820027248849_3_alg».proof.Proof.LibGatherClamp
import proofs.«418899_j35820027248849_3_alg».proof.Proof.LibPad
import Idealize.ShloMosaic.Lib.StableHlo.Run

noncomputable section

open scoped BigOperators
open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.PairGram Idealize.ShloMosaic.StableHlo

variable (m : (ℓ : Loc nD τ sig) → Buf (Elt Ideal) ℓ) (ρ : Dev nD → PrngReg)

/-- The padded input at a field below 39 is the input: the zero row sits at field 39 only. -/
theorem padded_apply (c : Dev nD) (b : Fin 16384) (i : Fin 40) (hi : i.val < 39) (d : Fin 64) :
    padded m c (ix3 b i d)
      = (m ((c : Thread nD τ).loc main_arg0) : FVec Ideal S16384x39x64 .f32) (ix3 b (⟨i.val, hi⟩ : Fin 39) d) := by
  have e : (V m c main_v0 : FVec Ideal S16384x40x64 .f32)
      = pad S16384x40x64 ![0, 0, 0] ![0, 1, 0] ![0, 0, 0] (m ((c : Thread nD τ).loc main_arg0) : FVec Ideal S16384x39x64 .f32)
          (sitofp (F := Ideal) .f32 (constantI S_ 32 0#32)) pads_S16384x39x64_S16384x40x64_000_010_000 h_S_ := by
    dsimp only [V, V0]
    simp only [hostOps0, hostOps0_1, List.flatten_cons, List.flatten_nil, List.append_nil, List.cons_append, List.nil_append]
    after_results
    rfl
  show (V m c main_v0 : FVec Ideal S16384x40x64 .f32) _ = _
  rw [e]
  exact PadRead.pad_apply_of_mem _ _ _ _ _ _ _ _ _ (fun a => match a with
    | ⟨0, _⟩ => by show b.val = 0 + b.val * (0 + 1); omega
    | ⟨1, _⟩ => by show i.val = 0 + i.val * (0 + 1); omega
    | ⟨2, _⟩ => by show d.val = 0 + d.val * (0 + 1); omega)

/-- The host operations after the pipeline, as one pure term of the pipeline's output array `A` and the table `C` of
    flat positions: the gather of `A`'s columns at the wrapped table. -/
def tailTerm (A : FVec Ideal S16384x1600 .f32) (C : IVec S741 32) : FVec Ideal S16384x741 .f32 :=
  Host.gather gather_S16384x1600_S741x1_S16384x741_0_1_n_n_1_1_163841 A
    (broadcastInDim S741x1 ![0] bcast_S741_S741x1_0
      (select (cmpi .slt C (broadcastInDim S741 ![] bcast_S_S741 (constantI S_ 32 0#32)))
        (addi C (broadcastInDim S741 ![] bcast_S_S741 (constantI S_ 32 1600#32))) C))

/-- The program's result buffer after the run: the tail's term of the pipeline's output array and the table. -/
theorem tail_read (c : Dev nD) :
    Pipeline.afterTail₀ cfgs (dats m) 0 (V0 m) [hostOps1] c main_v8
      = tailTerm (gramFlat (padded m c)) (fun i => lit0 (S741.rowMajor i)) := by
  have hA : Pipeline.withArrays (cfgs 0).spec c (V0 m c) (fun w => (dats m 0 c).arrAt w (cfgs 0).N) (Proc.devRef .tc main_v1)
      = gramFlat (padded m c) :=
    (Pipeline.withArrays_arr spec0 launch0.win.arr_inj c _ _ 1).trans (final1 m c)
  have hC : Pipeline.withArrays (cfgs 0).spec c (V0 m c) (fun w => (dats m 0 c).arrAt w (cfgs 0).N) (Proc.devRef .tc main_c)
      = (fun i => lit0 (S741.rowMajor i)) := by
    rw [Pipeline.withArrays_of_ne _ c (V0 m c) _ main_c (by exact (by decide : ∀ w, Pipeline.arrRef spec0 w ≠ main_c))]
    show StableHlo.after (List.flatten [hostOps0, hostOps0_1]) (fun b => m (c, b)) (Proc.devRef .tc main_c) = _
    simp only [hostOps0, hostOps0_1, List.flatten_cons, List.flatten_nil, List.append_nil, List.cons_append, List.nil_append]
    after_results
    rfl
  unfold Pipeline.afterTail₀
  show StableHlo.after hostOps1 _ (Proc.devRef .tc main_v8) = _
  after_results
  rw [hA, hC]
  rfl

/-- The table of flat positions, wrapped and laid as a column, reads at row `k` the table's entry `k`. -/
theorem wrappedFlat_apply (k : Fin 741) :
    (broadcastInDim S741x1 ![0] bcast_S741_S741x1_0
      (select (cmpi .slt (fun i => lit0 (S741.rowMajor i)) (broadcastInDim S741 ![] bcast_S_S741 (constantI S_ 32 0#32)))
        (addi (fun i => lit0 (S741.rowMajor i)) (broadcastInDim S741 ![] bcast_S_S741 (constantI S_ 32 1600#32)))
        (fun i => lit0 (S741.rowMajor i))) : IVec S741x1 32) (ix2 k (0 : Fin 1)) = lit0 k := by
  refine (broadcastInDim_apply _ _ _ _ (ix1 k) (fun a => match a with
    | ⟨0, _⟩ => by show k.val = if (741 : ℕ) = 1 then 0 else k.val; rfl)).trans ?_
  show Scalar.select (IntOp.cmpi .slt (lit0 (S741.rowMajor (ix1 k))) 0#32)
      (IntOp.addi (lit0 (S741.rowMajor (ix1 k))) 1600#32) (lit0 (S741.rowMajor (ix1 k))) = _
  have e : S741.rowMajor (ix1 k) = k := Fin.ext (Shape.rowMajor_val_one _)
  rw [e, GatherClamp.wrap_of_nonneg _ _ (flat_toInt k).1]

/-- THE TAIL'S VALUE: the gather of the flattened matrices of a padded input, at the pair table's flat positions, is the
    pair list of inner products of the input the padding extends. -/
theorem tailTerm_eq (x : FVec Ideal S16384x39x64 .f32) (P : FVec Ideal S16384x40x64 .f32)
    (hP : ∀ (b : Fin 16384) (i : Fin 40) (hi : i.val < 39) (d : Fin 64), P (ix3 b i d) = x (ix3 b (⟨i.val, hi⟩ : Fin 39) d)) :
    tailTerm (gramFlat P) (fun i => lit0 (S741.rowMajor i)) = pairGram rowOf colOf x := by
  funext y
  obtain ⟨b, k, rfl⟩ : ∃ (b : Fin 16384) (k : Fin 741), y = ix2 b k := ⟨y 0, y 1, eq_ix2 y⟩
  unfold tailTerm
  refine (GatherCols.gather_cols_apply (D := 16384) (N := 1600) (R := 741) (by decide)
    gather_S16384x1600_S741x1_S16384x741_0_1_n_n_1_1_163841_wf _ _ (ix2 b k)).trans ?_
  have hidx := wrappedFlat_apply k
  have hflat := (flat_toInt k).2
  have hr := rowOf_lt k
  have hc := colOf_lt k
  have hq : (⟨min ((broadcastInDim S741x1 ![0] bcast_S741_S741x1_0
      (select (cmpi .slt (fun i => lit0 (S741.rowMajor i)) (broadcastInDim S741 ![] bcast_S_S741 (constantI S_ 32 0#32)))
        (addi (fun i => lit0 (S741.rowMajor i)) (broadcastInDim S741 ![] bcast_S_S741 (constantI S_ 32 1600#32)))
        (fun i => lit0 (S741.rowMajor i))) : IVec S741x1 32)
        (GatherCols.colIdx (ix2 b k : (⟨2, ![16384, 741]⟩ : Shape).Idx))).toInt.toNat (1600 - 1), by omega⟩ : Fin 1600)
      = ⟨40 * rowOf k + colOf k, by omega⟩ := Fin.ext (by
    show min _ (1600 - 1) = 40 * rowOf k + colOf k
    rw [show GatherCols.colIdx (ix2 b k : (⟨2, ![16384, 741]⟩ : Shape).Idx) = ix2 k (0 : Fin 1) from rfl, hidx, hflat]
    omega)
  rw [hq]
  rw [gramFlat_apply P b (⟨40 * rowOf k + colOf k, by omega⟩ : Fin 1600) (⟨rowOf k, by omega⟩ : Fin 40) (⟨colOf k, by omega⟩ : Fin 40)
    (by show rowOf k = (40 * rowOf k + colOf k) / 40; omega) (by show colOf k = (40 * rowOf k + colOf k) % 40; omega)]
  unfold pairGram dotFields
  have ei : (⟨min (rowOf k) 38, by omega⟩ : Fin 39) = ⟨rowOf k, hr⟩ := Fin.ext (by show min (rowOf k) 38 = rowOf k; omega)
  have ej : (⟨min (colOf k) 38, by omega⟩ : Fin 39) = ⟨colOf k, hc⟩ := Fin.ext (by show min (colOf k) 38 = colOf k; omega)
  show _ = ∑ d : Fin 64, x (ix3 b (⟨min (rowOf k) 38, by omega⟩ : Fin 39) d) * x (ix3 b (⟨min (colOf k) 38, by omega⟩ : Fin 39) d)
  rw [ei, ej]
  exact Finset.sum_congr rfl fun d _ => by
    rw [hP b (⟨rowOf k, by omega⟩ : Fin 40) hr d, hP b (⟨colOf k, by omega⟩ : Fin 40) hc d]

/-- THE RUN, READ: every weakly fair execution of the kernel's program terminates with the result buffer at the pair list
    of inner products of the input, and the input unchanged. -/
theorem run : θ_run defs (onTc (τ := τ) (main (F := Ideal))) ⟨m, fun _ => 0, ρ⟩ fun r => ∀ c : Dev nD,
      r.2.mem ((c.tc : Thread nD τ).loc main_v8) = pairGram rowOf colOf (m ((c.tc : Thread nD τ).loc main_arg0))
      ∧ r.2.mem ((c.tc : Thread nD τ).loc main_arg0) = m ((c.tc : Thread nD τ).loc main_arg0) :=
  (θ_run defs _ _).mono (fun _ h c =>
      ⟨((h c).2 main_v8 (Pipeline.mem_restRefs_of main_v8 (by decide) (by decide))).trans
          ((tail_read m c).trans (tailTerm_eq _ _ (padded_apply m c))),
        ((h c).2 main_arg0 (Pipeline.mem_restRefs_of main_arg0 (by decide) (by decide))).trans (W_main_arg0 m (dats m) c)⟩)
    (run_main m ρ)

end Cert.KernelIdeal.Hand

end
-- ==== Proof.RefRun.lean ====
/-
  The reference program's run, read back.

  The reference is a straight line of host operations: the two tables of field numbers (the row and the column of each
  of the 741 pairs), the batched product of the input with itself over the feature axis (a `[16384, 39, 39]` array of
  inner products), jnp's wrap of negative indices applied to each table, the two tables laid side by side as a
  `[741, 2]` array of start indices, and the gather that reads, for each sample, the 741 named entries of its 39 × 39
  matrix. Every weakly fair execution runs these operations in order and ends with the result buffer holding the
  composed pure term `refTerm` of the input, the input unchanged.
-/
import proofs.«418899_j35820027248849_3_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The operations of the reference, in program order. -/
abbrev ops : List (HloOp τ sig (Elt F)) :=
  [ nullary main_c (fun i => lit0 (S741.rowMajor i)),
    nullary main_c_0 (fun i => lit1 (S741.rowMajor i)),
    binary main_arg0 main_arg0 main_v0 ((fun l r => Host.dotGeneral dot_S16384x39x64_S16384x39x64_S16384x39x39_2_2_1_1_0_0 none l r) : (⟨S16384x39x64, .f32⟩ : BufTy).Contents (Elt F) → (⟨S16384x39x64, .f32⟩ : BufTy).Contents (Elt F) → (⟨S16384x39x39, .f32⟩ : BufTy).Contents (Elt F)),
    nullary main_c_1 (constantI S_ 32 0#32),
    unary main_c_1 main_v1 (broadcastInDim S741 ![] bcast_S_S741 : (⟨S_, .i32⟩ : BufTy).Contents (Elt F) → (⟨S741, .i32⟩ : BufTy).Contents (Elt F)),
    binary main_c main_v1 main_v2 (cmpi .slt : (⟨S741, .i32⟩ : BufTy).Contents (Elt F) → (⟨S741, .i32⟩ : BufTy).Contents (Elt F) → (⟨S741, .i1⟩ : BufTy).Contents (Elt F)),
    nullary main_c_2 (constantI S_ 32 39#32),
    unary main_c_2 main_v3 (broadcastInDim S741 ![] bcast_S_S741 : (⟨S_, .i32⟩ : BufTy).Contents (Elt F) → (⟨S741, .i32⟩ : BufTy).Contents (Elt F)),
    binary main_c main_v3 main_v4 (addi : (⟨S741, .i32⟩ : BufTy).Contents (Elt F) → (⟨S741, .i32⟩ : BufTy).Contents (Elt F) → (⟨S741, .i32⟩ : BufTy).Contents (Elt F)),
    ternary main_v2 main_v4 main_c main_v5 (select : (⟨S741, .i1⟩ : BufTy).Contents (Elt F) → (⟨S741, .i32⟩ : BufTy).Contents (Elt F) → (⟨S741, .i32⟩ : BufTy).Contents (Elt F) → (⟨S741, .i32⟩ : BufTy).Contents (Elt F)),
    nullary main_c_3 (constantI S_ 32 0#32),
    unary main_c_3 main_v6 (broadcastInDim S741 ![] bcast_S_S741 : (⟨S_, .i32⟩ : BufTy).Contents (Elt F) → (⟨S741, .i32⟩ : BufTy).Contents (Elt F)),
    binary main_c_0 main_v6 main_v7 (cmpi .slt : (⟨S741, .i32⟩ : BufTy).Contents (Elt F) → (⟨S741, .i32⟩ : BufTy).Contents (Elt F) → (⟨S741, .i1⟩ : BufTy).Contents (Elt F)),
    nullary main_c_4 (constantI S_ 32 39#32),
    unary main_c_4 main_v8 (broadcastInDim S741 ![] bcast_S_S741 : (⟨S_, .i32⟩ : BufTy).Contents (Elt F) → (⟨S741, .i32⟩ : BufTy).Contents (Elt F)),
    binary main_c_0 main_v8 main_v9 (addi : (⟨S741, .i32⟩ : BufTy).Contents (Elt F) → (⟨S741, .i32⟩ : BufTy).Contents (Elt F) → (⟨S741, .i32⟩ : BufTy).Contents (Elt F)),
    ternary main_v7 main_v9 main_c_0 main_v10 (select : (⟨S741, .i1⟩ : BufTy).Contents (Elt F) → (⟨S741, .i32⟩ : BufTy).Contents (Elt F) → (⟨S741, .i32⟩ : BufTy).Contents (Elt F) → (⟨S741, .i32⟩ : BufTy).Contents (Elt F)),
    unary main_v5 main_v11 (broadcastInDim S741x1 ![0] bcast_S741_S741x1_0 : (⟨S741, .i32⟩ : BufTy).Contents (Elt F) → (⟨S741x1, .i32⟩ : BufTy).Contents (Elt F)),
    unary main_v10 main_v12 (broadcastInDim S741x1 ![0] bcast_S741_S741x1_0 : (⟨S741, .i32⟩ : BufTy).Contents (Elt F) → (⟨S741x1, .i32⟩ : BufTy).Contents (Elt F)),
    binary main_v11 main_v12 main_v13 ((fun a b => concatenate S741x2 1 [⟨S741x1, a⟩, ⟨S741x1, b⟩] concatenates_S741x1_S741x1_S741x2_d1) : (⟨S741x1, .i32⟩ : BufTy).Contents (Elt F) → (⟨S741x1, .i32⟩ : BufTy).Contents (Elt F) → (⟨S741x2, .i32⟩ : BufTy).Contents (Elt F)),
    binary main_v0 main_v13 main_v14 ((fun x i => Host.gather gather_S16384x39x39_S741x2_S16384x741_0_12_n_n_12_1_1638411 x i) : (⟨S16384x39x39, .f32⟩ : BufTy).Contents (Elt F) → (⟨S741x2, .i32⟩ : BufTy).Contents (Elt F) → (⟨S16384x741, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub ..⟩

/-- A table of field numbers after jnp's wrap of negative indices (`q + 39` where `q < 0`), as a column of start
    indices. -/
def wrapped (tab : IVec S741 32) : IVec S741x1 32 :=
  broadcastInDim S741x1 ![0] bcast_S741_S741x1_0
    (select (cmpi .slt tab (broadcastInDim S741 ![] bcast_S_S741 (constantI S_ 32 0#32)))
      (addi tab (broadcastInDim S741 ![] bcast_S_S741 (constantI S_ 32 39#32))) tab)

/-- The reference's result as a pure term of its input: the gather, at the two wrapped tables side by side, of the
    batched product of the input with itself. -/
def refTerm (x : FVec F S16384x39x64 .f32) : FVec F S16384x741 .f32 :=
  Host.gather gather_S16384x39x39_S741x2_S16384x741_0_12_n_n_12_1_1638411
    (Host.dotGeneral dot_S16384x39x64_S16384x39x64_S16384x39x39_2_2_1_1_0_0 none x x)
    (concatenate S741x2 1 [⟨S741x1, wrapped (fun i => lit0 (S741.rowMajor i))⟩, ⟨S741x1, wrapped (fun i => lit1 (S741.rowMajor i))⟩]
      concatenates_S741x1_S741x1_S741x2_d1)

/-- On every device, from any memory with zero counters: every weakly fair execution of the reference terminates with
    the result at `refTerm` of the input and the input unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v14) = refTerm (m ((c.tc : Thread nD τ).loc main_arg0))
      ∧ r.2.mem ((c.tc : Thread nD τ).loc main_arg0) = m ((c.tc : Thread nD τ).loc main_arg0) :=
  (θ_run defs _ _).mono (fun _ h c => ⟨(h c main_v14).trans (by after_results; rfl),
      (h c main_arg0).trans (by after_results)⟩)
    (run_seq scopedRefs_eq scopedSems_eq defs main (fun _ => ops) main_eq (fun _ => ops_sub) m ρ)

end Cert.ReferenceIdeal.HandRun

end
-- ==== Proof.LibGatherPairCols.lean ====
/-
  A gather of whole fibres of a rank-3 array at PAIRS of start indices, read at an index.

  The operand is an array `x : [D, N1, N2]`; the start indices are a table `idx : [R, 2]` of integer pairs; the result
  is the matrix `[D, R]` whose column `t` is the fibre `x[:, idx[t, 0], idx[t, 1]]`. In StableHLO's vocabulary: the
  result's axis `0` is the one offset axis and runs over the operand's axis `0` (slice size `D`); the operand's axes
  `1` and `2` are collapsed (slice size `1`) and are the two axes a start index names, in that order; the index vector
  lies along axis `1` of the start indices. Each component of a start index is read as a signed integer and clamped
  into its axis (`[0, N1 − 1]`, `[0, N2 − 1]`), as every gather clamps.

  Per operand axis the operand index is start + batching coordinate + offset coordinate:
    * on axis 0 (kept, not named by the start index) the start and the batching coordinate are `0` and the offset
      coordinate is the result's coordinate on its offset axis;
    * on axes 1 and 2 (named by the start index, collapsed) the start is the clamped component, the other two are `0`.
-/
import Idealize.ShloMosaic.PureOps
import Idealize.ShloMosaic.Lib.ValueIdx

namespace Idealize.ShloMosaic.GatherPairCols

open Idealize.ShloMosaic Idealize.ShloMosaic.ValueIdx

variable {α : Type}

/-- Those dimension numbers for an operand `[D, N1, N2]`, start indices `[R, 2]` and result `[D, R]`; their conditions
    `wf` are decided on a program's literal shapes. -/
abbrev pairDims (D N1 N2 R : Nat)
    (wf : GatherDims.WF ⟨3, ![D, N1, N2]⟩ ⟨2, ![R, 2]⟩ ⟨2, ![D, R]⟩ [0] [1, 2] [] [1, 2] [] 1 ![D, 1, 1]) :
    GatherDims ⟨3, ![D, N1, N2]⟩ ⟨2, ![R, 2]⟩ ⟨2, ![D, R]⟩ where
  offsetDims := [0]
  collapsedSliceDims := [1, 2]
  operandBatchingDims := []
  startIndicesBatchingDims := []
  startIndexMap := [1, 2]
  indexVectorDim := 1
  sliceSizes := ![D, 1, 1]
  wf := wf

/-- The place `[t, q]` in the start indices where the result's column `t` reads component `q` of its start index. -/
abbrev pairIdx {D R : Nat} (y : (⟨2, ![D, R]⟩ : Shape).Idx) (q : Fin 2) : (⟨2, ![R, 2]⟩ : Shape).Idx :=
  ix2 (⟨(y 1).val, idx2_lt1 y⟩ : Fin R) q

/-- THE GATHER READ AT `(j, t)`: the operand's fibre through row `j` at the two start-index components `idx[t, 0]`,
    `idx[t, 1]`, each read signed and clamped into its axis. -/
theorem gather_pair_cols_apply {D N1 N2 R w : Nat} (hN1 : 0 < N1) (hN2 : 0 < N2)
    (wf : GatherDims.WF ⟨3, ![D, N1, N2]⟩ ⟨2, ![R, 2]⟩ ⟨2, ![D, R]⟩ [0] [1, 2] [] [1, 2] [] 1 ![D, 1, 1])
    (x : (⟨3, ![D, N1, N2]⟩ : Shape).Idx → α) (idx : IVec ⟨2, ![R, 2]⟩ w) (y : (⟨2, ![D, R]⟩ : Shape).Idx) :
    Host.gather (pairDims D N1 N2 R wf) x idx y
      = x (ix3 (⟨(y 0).val, idx2_lt0 y⟩ : Fin D)
            (⟨min (idx (pairIdx y 0)).toInt.toNat (N1 - 1), by omega⟩ : Fin N1)
            (⟨min (idx (pairIdx y 1)).toInt.toNat (N2 - 1), by omega⟩ : Fin N2)) := by
  unfold Host.gather
  congr 1
  funext a
  refine Fin.ext ?_
  have hm1 : (1 : Fin 3) ∈ (pairDims D N1 N2 R wf).startIndexMap := by simp
  have hm2 : (2 : Fin 3) ∈ (pairDims D N1 N2 R wf).startIndexMap := by simp
  -- component `q` of the start index of result column `t` is read at `[t, q]`
  have hsi1 : (pairDims D N1 N2 R wf).siIdx y ⟨List.idxOf (1 : Fin 3) (pairDims D N1 N2 R wf).startIndexMap,
      List.idxOf_lt_length_iff.2 hm1⟩ = pairIdx y 0 := by
    funext b; refine Fin.ext ?_
    match b with
    | ⟨0, _⟩ => rfl
    | ⟨1, _⟩ => rfl
  have hsi2 : (pairDims D N1 N2 R wf).siIdx y ⟨List.idxOf (2 : Fin 3) (pairDims D N1 N2 R wf).startIndexMap,
      List.idxOf_lt_length_iff.2 hm2⟩ = pairIdx y 1 := by
    funext b; refine Fin.ext ?_
    match b with
    | ⟨0, _⟩ => rfl
    | ⟨1, _⟩ => rfl
  match a with
  | ⟨0, _⟩ =>
    -- axis 0: kept, not named by the start index; it reads the result's one offset axis
    show (pairDims D N1 N2 R wf).start y idx 0 + (pairDims D N1 N2 R wf).batchCoord y 0
      + (pairDims D N1 N2 R wf).offCoord y 0 = _
    have hn0 : (0 : Fin 3) ∉ (pairDims D N1 N2 R wf).startIndexMap := by
      show (0 : Fin 3) ∉ ([1, 2] : List (Fin 3)); decide
    have hk0 : (0 : Fin 3) ∈ (pairDims D N1 N2 R wf).sKept := by
      rw [GatherDims.mem_sKept]
      exact ⟨by show (0 : Fin 3) ∉ ([1, 2] : List (Fin 3)); decide, List.not_mem_nil⟩
    rw [GatherDims.batchCoord_eq_zero _ _ _ List.not_mem_nil]
    unfold GatherDims.start
    rw [dif_neg hn0]
    unfold GatherDims.offCoord
    rw [dif_pos hk0, Nat.zero_add]
    rfl
  | ⟨1, _⟩ =>
    -- axis 1: collapsed, the first component of the start index
    show (pairDims D N1 N2 R wf).start y idx 1 + (pairDims D N1 N2 R wf).batchCoord y 1
      + (pairDims D N1 N2 R wf).offCoord y 1 = _
    rw [GatherDims.batchCoord_eq_zero _ _ _ List.not_mem_nil,
      GatherDims.offCoord_eq_zero _ _ _ (fun h => ((GatherDims.mem_sKept _ _).mp h).1 (by simp))]
    simp only [Nat.add_zero]
    unfold GatherDims.start
    rw [dif_pos hm1, hsi1]
    rfl
  | ⟨2, _⟩ =>
    -- axis 2: collapsed, the second component of the start index
    show (pairDims D N1 N2 R wf).start y idx 2 + (pairDims D N1 N2 R wf).batchCoord y 2
      + (pairDims D N1 N2 R wf).offCoord y 2 = _
    rw [GatherDims.batchCoord_eq_zero _ _ _ List.not_mem_nil,
      GatherDims.offCoord_eq_zero _ _ _ (fun h => ((GatherDims.mem_sKept _ _).mp h).1 (by simp))]
    simp only [Nat.add_zero]
    unfold GatherDims.start
    rw [dif_pos hm2, hsi2]
    rfl

end Idealize.ShloMosaic.GatherPairCols
-- ==== Proof.RefValue.lean ====
/-
  The reference's result is the pair list of inner products.

  Read at sample `b` and pair `k`: the gather reads the batched product at `(b, r, c)` where `r` and `c` are the two start
  index components of pair `k`, clamped into `[0, 38]`; the start indices are the two tables after jnp's wrap of negative
  indices, which leaves a non-negative entry alone, so `r` and `c` are the row and the column of pair `k`; and the
  batched product at `(b, r, c)` is the sum over the 64 features of `x[b, r, d] · x[b, c, d]`.
-/
import proofs.«418899_j35820027248849_3_alg».proof.Proof.RefRun
import proofs.«418899_j35820027248849_3_alg».proof.Proof.Tables
import proofs.«418899_j35820027248849_3_alg».proof.Proof.GramSpec
import proofs.«418899_j35820027248849_3_alg».proof.Proof.LibGatherPairCols
import proofs.«418899_j35820027248849_3_alg».proof.Proof.LibGatherClamp
import proofs.«418899_j35820027248849_3_alg».proof.Proof.LibBatchedContract
import Idealize.ShloMosaic.Lib.Pipeline.Value

noncomputable section

open scoped BigOperators

namespace Cert.ReferenceIdeal.HandValue

open Cert.ReferenceIdeal Cert.ReferenceIdeal.Gen Cert.ReferenceIdeal.HandRun Cert.PairGram
open Idealize.ShloMosaic Idealize.ShloMosaic.ValueIdx

/-- A table of non-negative entries, wrapped and laid as a column, reads at row `k` the table's entry `k`. -/
theorem wrapped_apply (lit : Fin 741 → BitVec 32) (hnn : ∀ k, 0 ≤ (lit k).toInt) (k : Fin 741) :
    wrapped (fun i => lit (S741.rowMajor i)) (ix2 k (0 : Fin 1)) = lit k := by
  unfold wrapped
  refine (broadcastInDim_apply _ _ _ _ (ix1 k) (fun a => match a with
    | ⟨0, _⟩ => by show k.val = if (741 : ℕ) = 1 then 0 else k.val; rfl)).trans ?_
  show Scalar.select (IntOp.cmpi .slt (lit (S741.rowMajor (ix1 k))) 0#32)
      (IntOp.addi (lit (S741.rowMajor (ix1 k))) 39#32) (lit (S741.rowMajor (ix1 k))) = _
  have e : S741.rowMajor (ix1 k) = k := Fin.ext (Shape.rowMajor_val_one _)
  rw [e, GatherClamp.wrap_of_nonneg _ _ (hnn k)]

/-- The two wrapped tables side by side: row `k` holds the row and the column of pair `k`. -/
theorem starts_apply (h : Shape.Concatenates [S741x1, S741x1] S741x2 1) (k : Fin 741) :
    concatenate S741x2 1 [⟨S741x1, wrapped (fun i => lit0 (S741.rowMajor i))⟩, ⟨S741x1, wrapped (fun i => lit1 (S741.rowMajor i))⟩] h
        (ix2 k (0 : Fin 2)) = lit0 k
    ∧ concatenate S741x2 1 [⟨S741x1, wrapped (fun i => lit0 (S741.rowMajor i))⟩, ⟨S741x1, wrapped (fun i => lit1 (S741.rowMajor i))⟩] h
        (ix2 k (1 : Fin 2)) = lit1 k := by
  constructor
  · refine (concatenate_pair_apply_left (s₁ := S741x1) (s₂ := S741x1) (1 : Fin 2) _ _ h (ix2 k (0 : Fin 2)) rfl (ix2 k (0 : Fin 1))
      (fun b => match b with | ⟨0, _⟩ => rfl | ⟨1, _⟩ => rfl)).trans ?_
    exact wrapped_apply lit0 (fun k => (row_toInt k).1) k
  · refine (concatenate_pair_apply_right (s₁ := S741x1) (s₂ := S741x1) (1 : Fin 2) _ _ h (ix2 k (1 : Fin 2)) rfl rfl (ix2 k (0 : Fin 1))
      (fun b hb => match b with | ⟨0, _⟩ => rfl | ⟨1, _⟩ => absurd rfl hb) rfl).trans ?_
    exact wrapped_apply lit1 (fun k => (col_toInt k).1) k

/-- THE REFERENCE'S VALUE: entry `(b, k)` is the inner product of the two fields pair `k` names. -/
theorem refTerm_eq (x : FVec Ideal S16384x39x64 .f32) : refTerm (F := Ideal) x = pairGram rowOf colOf x := by
  funext y
  obtain ⟨b, k, rfl⟩ : ∃ (b : Fin 16384) (k : Fin 741), y = ix2 b k := ⟨y 0, y 1, eq_ix2 y⟩
  unfold refTerm
  refine (GatherPairCols.gather_pair_cols_apply (D := 16384) (N1 := 39) (N2 := 39) (R := 741) (by decide) (by decide)
    gather_S16384x39x39_S741x2_S16384x741_0_12_n_n_12_1_1638411_wf _ _ (ix2 b k)).trans ?_
  obtain ⟨e0, e1⟩ := starts_apply concatenates_S741x1_S741x1_S741x2_d1 k
  have e0' : (concatenate S741x2 1 [⟨S741x1, wrapped (fun i => lit0 (S741.rowMajor i))⟩, ⟨S741x1, wrapped (fun i => lit1 (S741.rowMajor i))⟩]
      concatenates_S741x1_S741x1_S741x2_d1 (GatherPairCols.pairIdx (ix2 b k : (⟨2, ![16384, 741]⟩ : Shape).Idx) 0)) = lit0 k := e0
  have e1' : (concatenate S741x2 1 [⟨S741x1, wrapped (fun i => lit0 (S741.rowMajor i))⟩, ⟨S741x1, wrapped (fun i => lit1 (S741.rowMajor i))⟩]
      concatenates_S741x1_S741x1_S741x2_d1 (GatherPairCols.pairIdx (ix2 b k : (⟨2, ![16384, 741]⟩ : Shape).Idx) 1)) = lit1 k := e1
  have hr := (row_toInt k).2
  have hc := (col_toInt k).2
  have hr38 := rowOf_lt k
  have hc38 := colOf_lt k
  -- the batched product at (b, r, c)
  refine (BatchedContract.dotGeneral_batched dot_S16384x39x64_S16384x39x64_S16384x39x39_2_2_1_1_0_0 none .single
    rfl rfl rfl rfl rfl rfl rfl rfl x x _ _ _).trans ?_
  unfold pairGram dotFields
  have hi : (⟨min (concatenate S741x2 1 [⟨S741x1, wrapped (fun i => lit0 (S741.rowMajor i))⟩, ⟨S741x1, wrapped (fun i => lit1 (S741.rowMajor i))⟩]
        concatenates_S741x1_S741x1_S741x2_d1 (GatherPairCols.pairIdx (ix2 b k : (⟨2, ![16384, 741]⟩ : Shape).Idx) 0)).toInt.toNat (39 - 1),
        by omega⟩ : Fin 39) = ⟨min (rowOf k) 38, by omega⟩ := Fin.ext (by show min _ (39 - 1) = min _ 38; rw [e0', hr])
  have hj : (⟨min (concatenate S741x2 1 [⟨S741x1, wrapped (fun i => lit0 (S741.rowMajor i))⟩, ⟨S741x1, wrapped (fun i => lit1 (S741.rowMajor i))⟩]
        concatenates_S741x1_S741x1_S741x2_d1 (GatherPairCols.pairIdx (ix2 b k : (⟨2, ![16384, 741]⟩ : Shape).Idx) 1)).toInt.toNat (39 - 1),
        by omega⟩ : Fin 39) = ⟨min (colOf k) 38, by omega⟩ := Fin.ext (by show min _ (39 - 1) = min _ 38; rw [e1', hc])
  rw [hi, hj]

end Cert.ReferenceIdeal.HandValue

end
-- ==== Proof.lean ====
/-
  Pairwise inner products of a sample's fields, computed two ways.

  The input is `x : [16384, 39, 64]`: 16384 samples, each 39 field vectors of 64 numbers. Both programs return, for every
  sample `b` and every pair of fields `i < j` (741 pairs, in the order of the strict upper triangle read row by row), the
  inner product `∑_d x[b, i, d] · x[b, j, d]`.

  The reference forms the batched product of the input with itself over the feature axis, a 39 × 39 matrix per sample,
  and gathers the 741 entries `(i, j)` through two tables, the rows and the columns of the pairs.

  The kernel's program pads the field axis with one zero row (39 → 40), runs a pipeline over 64 blocks of 256 samples
  whose body stacks 4 samples' field vectors into 160 rows, multiplies the stack with itself (160 × 160, contracting the
  64 features, into a zero accumulator), keeps the four 40 × 40 diagonal blocks — each sample against itself —, and
  writes each sample's matrix flattened row by row (1600 numbers); the host then gathers the 741 flat positions
  `40·i + j` through ONE table.

  Over the extended reals the two are one function, with no law beyond reading each operation at an index: the narrowing
  of the product's operands to bf16 is the identity, a product into the zero accumulator is the plain sum over the
  features, and the kernel's table is entry by entry `40·row + column` of the reference's two, every row and column
  below 39, so the padding row is never read and the gather's clamps and jnp's wrap of negative indices do nothing.
  Finiteness of the input is not used.

  The pieces: `GramSpec` (the result as one function, `pairGram`), `Tables` (the relation between the tables, decided
  over the 741 pairs), `RefRun` and `RefValue` (the reference's run and its value), `KernelPayload` (what the body
  stores, at an index), `KernelArray` (the pipeline's output array after the run), `KernelTail` (the padding before, the
  gather after, and the kernel program's run read as `pairGram`), and general lemmas about gathers of columns and of
  pairs, a wrapped index, a batched product and a padded array read at an index.
-/
import proofs.«418899_j35820027248849_3_alg».proof.Defs
import proofs.«418899_j35820027248849_3_alg».proof.Proof.Gen.Kernel
import proofs.«418899_j35820027248849_3_alg».proof.Proof.Gen.Kernel.Skeleton
import proofs.«418899_j35820027248849_3_alg».proof.Proof.Gen.Kernel.Launch
import proofs.«418899_j35820027248849_3_alg».proof.Proof.Gen.Kernel.Points
import proofs.«418899_j35820027248849_3_alg».proof.Proof.Gen.Kernel.Frame
import proofs.«418899_j35820027248849_3_alg».proof.Proof.Gen.KernelIdeal
import proofs.«418899_j35820027248849_3_alg».proof.Proof.Gen.KernelIdeal.Skeleton
import proofs.«418899_j35820027248849_3_alg».proof.Proof.Gen.KernelIdeal.Launch
import proofs.«418899_j35820027248849_3_alg».proof.Proof.Gen.KernelIdeal.Points
import proofs.«418899_j35820027248849_3_alg».proof.Proof.Gen.KernelIdeal.Frame
import proofs.«418899_j35820027248849_3_alg».proof.Proof.Gen.ReferenceIdeal
import proofs.«418899_j35820027248849_3_alg».proof.Proof.Gen.Pre_finite_inputs
import proofs.«418899_j35820027248849_3_alg».proof.Proof.KernelTail
import proofs.«418899_j35820027248849_3_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves its input as it was. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and leaves its input as it was: its run, with the result dropped. -/
theorem frame_referenceIdeal : Cert.frame_ReferenceIdeal := fun m ρ _ =>
  (θ_run Cert.ReferenceIdeal.defs _ _).mono (fun _ h c => (h c).2) (Cert.ReferenceIdeal.HandRun.run (F := Ideal) m ρ)

/-- From inputs that agree, both programs end with the pair list of inner products of the input: the kernel program's
    run read through its padding, pipeline and gather, the reference's through its batched product and gather. -/
theorem algebraic : Cert.algebraic_KernelIdeal_ReferenceIdeal := by
  intro m ρ m' ρ' _ hagree
  refine ⟨fun c => Cert.PairGram.pairGram Cert.PairGram.rowOf Cert.PairGram.colOf
      (m ((c.tc : Thread Cert.KernelIdeal.nD Cert.KernelIdeal.τ).loc Cert.KernelIdeal.main_arg0)),
    Cert.KernelIdeal.Hand.run m ρ, ?_⟩
  refine (θ_run Cert.ReferenceIdeal.defs _ _).mono (fun _ h c => ⟨(h c).1.trans ?_, (h c).2⟩)
    (Cert.ReferenceIdeal.HandRun.run (F := Ideal) m' ρ')
  rw [Cert.ReferenceIdeal.HandValue.refTerm_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
